-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x288x512 : Shape := ⟨4, ![4, 256, 288, 512]⟩
abbrev S4x288x512 : Shape := ⟨3, ![4, 288, 512]⟩
abbrev S_ : Shape := ⟨0, ![]⟩

class Facts : Prop where
  bcast_S_S4x256x288x512 : S_.BroadcastsInDim S4x256x288x512 (![] : Fin 0 → Fin S4x256x288x512.rank)
  reducesTo_S4x256x288x512_S_d0_1_2_3 : S4x256x288x512.ReducesTo [0, 1, 2, 3] S_
  h_S_ : 0 < S_.numel
  bcast_S_S4x288x512 : S_.BroadcastsInDim S4x288x512 (![] : Fin 0 → Fin S4x288x512.rank)
  reducesTo_S4x288x512_S_d0_1_2 : S4x288x512.ReducesTo [0, 1, 2] S_

variable [Facts]

def fn {F : FTy → Type} [FloatOps F] (main_arg0 : FVec F S4x256x288x512 .f32) (main_arg1 : IVec S4x288x512 32) : IVec S_ 1 :=
  let main_v0 : FVec F S4x256x288x512 .f32 := Host.absf main_arg0
  let main_cst : FVec F S_ .f32 := constant S_ .f32 0x7F800000#32
  let main_v1 : FVec F S4x256x288x512 .f32 := broadcastInDim S4x256x288x512 ![] bcast_S_S4x256x288x512 main_cst
  let main_v2 : IVec S4x256x288x512 1 := cmpf .olt main_v0 main_v1
  let main_c : IVec S_ 1 := constantI S_ 1 1#1
  let main_v3 : IVec S_ 1 := (fun x v => Host.reduce IntOp.andi x v reducesTo_S4x256x288x512_S_d0_1_2_3 h_S_) main_v2 main_c
  let main_c_0 : IVec S_ 32 := constantI S_ 32 0#32
  let main_v4 : IVec S4x288x512 32 := broadcastInDim S4x288x512 ![] bcast_S_S4x288x512 main_c_0
  let main_v5 : IVec S4x288x512 1 := cmpi .sge main_arg1 main_v4
  let main_c_1 : IVec S_ 32 := constantI S_ 32 256#32
  let main_v6 : IVec S4x288x512 32 := broadcastInDim S4x288x512 ![] bcast_S_S4x288x512 main_c_1
  let main_v7 : IVec S4x288x512 1 := cmpi .slt main_arg1 main_v6
  let main_v8 : IVec S4x288x512 1 := andi main_v5 main_v7
  let main_c_2 : IVec S_ 1 := constantI S_ 1 1#1
  let main_v9 : IVec S_ 1 := (fun x v => Host.reduce IntOp.andi x v reducesTo_S4x288x512_S_d0_1_2 h_S_) main_v8 main_c_2
  let main_v10 : IVec S_ 1 := andi main_v3 main_v9
  main_v10
-- ==== Kernel.lean ====
abbrev S4x256x288x512 : Shape := ⟨4, ![4, 256, 288, 512]⟩
abbrev S4x288x512 : Shape := ⟨3, ![4, 288, 512]⟩
abbrev S4x1x1 : Shape := ⟨3, ![4, 1, 1]⟩
abbrev S1x256x32x512 : Shape := ⟨4, ![1, 256, 32, 512]⟩
abbrev S1x32x512 : Shape := ⟨3, ![1, 32, 512]⟩
abbrev S1x1x1 : Shape := ⟨3, ![1, 1, 1]⟩
abbrev S32x512 : Shape := ⟨2, ![32, 512]⟩
abbrev S256x32x512 : Shape := ⟨3, ![256, 32, 512]⟩
abbrev S1 : Shape := ⟨1, ![1]⟩
abbrev S1x1 : Shape := ⟨2, ![1, 1]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S4x256x288x512, .f32⟩
  | .hbm, ⟨1, _⟩ => ⟨S4x288x512, .i32⟩
  | .hbm, ⟨2, _⟩ => ⟨S4x1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1x256x32x512, .f32⟩
  | .local _ .vmem, ⟨1, _⟩ => ⟨S1x256x32x512, .f32⟩
  | .local _ .vmem, ⟨2, _⟩ => ⟨S1x32x512, .i32⟩
  | .local _ .vmem, ⟨3, _⟩ => ⟨S1x32x512, .i32⟩
  | .local _ .vmem, ⟨4, _⟩ => ⟨S1x1x1, .f32⟩
  | .local _ .vmem, ⟨5, _⟩ => ⟨S1x1x1, .f32⟩
  | .local _ .vmem, ⟨6, _⟩ => ⟨S32x512, .f32⟩
  | _, _ => ⟨S4x256x288x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 9], ![false, false]⟩

def k0_cond2 (i : grid0.Coords) : BitVec 1 :=
  let arg1 : BitVec 32 := BitVec.ofNat 32 (i 1).val
  let c8_i32 : BitVec 32 := 8#32
  let v30 : BitVec 1 := Scalar.cmpi .eq arg1 c8_i32
  let v31 : BitVec 32 := Scalar.extui v30
  let c0_i32_14 : BitVec 32 := 0#32
  let v32 : BitVec 1 := Scalar.cmpi .ne v31 c0_i32_14
  v32

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S1x256x32x512_S1x256x32x512_0_0_0_0 : ∀ a, (![0, 0, 0, 0] : Fin 4 → Nat) a + S1x256x32x512.size a ≤ S1x256x32x512.size a
  h_S1x256x32x512 : 0 < S1x256x32x512.numel
  shapeCasts_S1x256x32x512_S256x32x512 : S1x256x32x512.ShapeCasts S256x32x512
  reduces_S256x32x512_S32x512 : S256x32x512.Reduces [0] S32x512
  shapeCasts_S32x512_S1x32x512 : S32x512.ShapeCasts S1x32x512
  broadcasts_S1x32x512_S256x32x512 : S1x32x512.Broadcasts S256x32x512
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  iota_S256x32x512_d0_w32 : S256x32x512.Iotas .tc 32 [0]
  reduces_S1x32x512_S1 : S1x32x512.Reduces [1, 2] S1
  shapeCasts_S1_S1x1x1 : S1.ShapeCasts S1x1x1
  inpos_S1x1x1_p0_0_0 : ∀ a, (![0, 0, 0] : Fin 3 → Nat) a < S1x1x1.size a
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S4x1x1_S_d0_1_2 : S4x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x32x512.size a ≤ S4x256x288x512.size a
  hwx0_0 : ∀ i : grid0.Coords, EltTy.bits .f32 = 32 ∨ (Rect.block (s := S4x256x288x512) S1x256x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x512.size a ≤ S4x288x512.size a
  hwx0_1 : ∀ i : grid0.Coords, EltTy.bits .i32 = 32 ∨ (Rect.block (s := S4x288x512) S1x32x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S4x1x1.size a
  hwx0_2 : ∀ i : grid0.Coords, EltTy.bits .f32 = 32 ∨ (Rect.block (s := S4x1x1) S1x1x1.size (cc0_transform_2 i) (hinb0_2 i)).WholeWords (EltTy.packing .f32)

variable [Facts₀]

abbrev win0_0 : Pipeline.Window sig grid0 :=
  Pipeline.Window.ofSpec (Memref.whole main_arg0) S1x256x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x256x288x512 : Shape := ⟨4, ![4, 256, 288, 512]⟩
abbrev S4x288x512 : Shape := ⟨3, ![4, 288, 512]⟩
abbrev S4x288x512x256 : Shape := ⟨4, ![4, 288, 512, 256]⟩
abbrev S_ : Shape := ⟨0, ![]⟩
abbrev S4x288x512x1 : Shape := ⟨4, ![4, 288, 512, 1]⟩
abbrev S4x288x512x1x1 : Shape := ⟨5, ![4, 288, 512, 1, 1]⟩
abbrev S1 : Shape := ⟨1, ![1]⟩
abbrev S1x1x1x1x1 : Shape := ⟨5, ![1, 1, 1, 1, 1]⟩

abbrev nBuf : Space → Nat
  | .hbm => 47
  | .vmem => 0
  | .smem => 0
  | _ => 0

abbrev bufTy : (tb : Table) → Fin (tcTables nBuf tb) → BufTy
  | .hbm, ⟨0, _⟩ => ⟨S4x256x288x512, .f32⟩
  | .hbm, ⟨1, _⟩ => ⟨S4x288x512, .i32⟩
  | .hbm, ⟨2, _⟩ => ⟨S4x288x512x256, .f32⟩
  | .hbm, ⟨3, _⟩ => ⟨S_, .f32⟩
  | .hbm, ⟨4, _⟩ => ⟨S4x288x512, .f32⟩
  | .hbm, ⟨5, _⟩ => ⟨S_, .f32⟩
  | .hbm, ⟨6, _⟩ => ⟨S4x288x512, .f32⟩
  | .hbm, ⟨7, _⟩ => ⟨S4x288x512, .f32⟩
  | .hbm, ⟨8, _⟩ => ⟨S4x288x512x1, .f32⟩
  | .hbm, ⟨9, _⟩ => ⟨S4x288x512x256, .f32⟩
  | .hbm, ⟨10, _⟩ => ⟨S4x288x512x256, .f32⟩
  | .hbm, ⟨11, _⟩ => ⟨S4x288x512x256, .f32⟩
  | .hbm, ⟨12, _⟩ => ⟨S_, .f32⟩
  | .hbm, ⟨13, _⟩ => ⟨S4x288x512, .f32⟩
  | .hbm, ⟨14, _⟩ => ⟨S4x288x512x1, .f32⟩
  | .hbm, ⟨15, _⟩ => ⟨S4x288x512x1, .f32⟩
  | .hbm, ⟨16, _⟩ => ⟨S4x288x512x256, .f32⟩
  | .hbm, ⟨17, _⟩ => ⟨S4x288x512x256, .f32⟩
  | .hbm, ⟨18, _⟩ => ⟨S4x288x512x1, .i32⟩
  | .hbm, ⟨19, _⟩ => ⟨S_, .i32⟩
  | .hbm, ⟨20, _⟩ => ⟨S4x288x512x1, .i32⟩
  | .hbm, ⟨21, _⟩ => ⟨S4x288x512x1, .i1⟩
  | .hbm, ⟨22, _⟩ => ⟨S_, .i32⟩
  | .hbm, ⟨23, _⟩ => ⟨S4x288x512x1, .i32⟩
  | .hbm, ⟨24, _⟩ => ⟨S4x288x512x1, .i32⟩
  | .hbm, ⟨25, _⟩ => ⟨S4x288x512x1, .i32⟩
  | .hbm, ⟨26, _⟩ => ⟨S4x288x512x1x1, .i32⟩
  | .hbm, ⟨27, _⟩ => ⟨S1, .i32⟩
  | .hbm, ⟨28, _⟩ => ⟨S_, .i32⟩
  | .hbm, ⟨29, _⟩ => ⟨S4x288x512x1x1, .i32⟩
  | .hbm, ⟨30, _⟩ => ⟨S4x288x512x1x1, .i1⟩
  | .hbm, ⟨31, _⟩ => ⟨S1x1x1x1x1, .i32⟩
  | .hbm, ⟨32, _⟩ => ⟨S4x288x512x1x1, .i32⟩
  | .hbm, ⟨33, _⟩ => ⟨S4x288x512x1x1, .i1⟩
  | .hbm, ⟨34, _⟩ => ⟨S4x288x512x1x1, .i1⟩
  | .hbm, ⟨35, _⟩ => ⟨S_, .i1⟩
  | .hbm, ⟨36, _⟩ => ⟨S4x288x512x1, .i1⟩
  | .hbm, ⟨37, _⟩ => ⟨S4x288x512x1, .f32⟩
  | .hbm, ⟨38, _⟩ => ⟨S_, .f32⟩
  | .hbm, ⟨39, _⟩ => ⟨S4x288x512x1, .f32⟩
  | .hbm, ⟨40, _⟩ => ⟨S4x288x512x1, .f32⟩
  | .hbm, ⟨41, _⟩ => ⟨S4x288x512, .f32⟩
  | .hbm, ⟨42, _⟩ => ⟨S4x288x512, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S4x256x288x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v1 : Ref sig .tc := ⟨.hbm, 17, rfl⟩
abbrev main_v2 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_cst : Ref sig .tc := ⟨.hbm, 43, rfl⟩
abbrev main_v6 : Ref sig .tc := ⟨.hbm, 44, rfl⟩
abbrev main_cst_0 : Ref sig .tc := ⟨.hbm, 45, rfl⟩
abbrev main_v7 : Ref sig .tc := ⟨.hbm, 46, rfl⟩

abbrev nD : Nat := 1
abbrev τ : Topo := Topo.v7x

variable {F : FTy → Type} [FloatOps F]

class Facts₀ : Prop where
  transposes_S4x256x288x512_S4x288x512x256_0_2_3_1 : S4x256x288x512.Transposes [0, 2, 3, 1] S4x288x512x256
  reducesTo_S4x288x512x256_S4x288x512_d3 : S4x288x512x256.ReducesTo [3] S4x288x512
  h_S_ : 0 < S_.numel
  bcast_S_S4x288x512 : S_.BroadcastsInDim S4x288x512 (![] : Fin 0 → Fin S4x288x512.rank)
  bcast_S4x288x512_S4x288x512x1_0_1_2 : S4x288x512.BroadcastsInDim S4x288x512x1 (![0, 1, 2] : Fin 3 → Fin S4x288x512x1.rank)
  bcast_S4x288x512x1_S4x288x512x256_0_1_2_3 : S4x288x512x1.BroadcastsInDim S4x288x512x256 (![0, 1, 2, 3] : Fin 4 → Fin S4x288x512x256.rank)
  bcast_S_S4x288x512x1 : S_.BroadcastsInDim S4x288x512x1 (![] : Fin 0 → Fin S4x288x512x1.rank)
  shapeCasts_S4x288x512x1_S4x288x512x1x1 : S4x288x512x1.ShapeCasts S4x288x512x1x1
  bcast_S_S4x288x512x1x1 : S_.BroadcastsInDim S4x288x512x1x1 (![] : Fin 0 → Fin S4x288x512x1x1.rank)
  bcast_S1_S1x1x1x1x1_4 : S1.BroadcastsInDim S1x1x1x1x1 (![4] : Fin 1 → Fin S1x1x1x1x1.rank)
  bcast_S1x1x1x1x1_S4x288x512x1x1_0_1_2_3_4 : S1x1x1x1x1.BroadcastsInDim S4x288x512x1x1 (![0, 1, 2, 3, 4] : Fin 5 → Fin S4x288x512x1x1.rank)
  reducesTo_S4x288x512x1x1_S4x288x512x1_d4 : S4x288x512x1x1.ReducesTo [4] S4x288x512x1
  shapeCasts_S4x288x512x1_S4x288x512 : S4x288x512x1.ShapeCasts S4x288x512
  reducesTo_S4x288x512_S_d0_1_2 : S4x288x512.ReducesTo [0, 1, 2] S_
  gather_S4x288x512x256_S4x288x512x1x1_S4x288x512x1_n_3_012_012_3_4_1111_wf : GatherDims.WF S4x288x512x256 S4x288x512x1x1 S4x288x512x1 [] [3] [0, 1, 2] [3] [0, 1, 2] 4 ![1, 1, 1, 1]

variable [Facts₀]

def gather_S4x288x512x256_S4x288x512x1x1_S4x288x512x1_n_3_012_012_3_4_1111 : GatherDims S4x288x512x256 S4x288x512x1x1 S4x288x512x1 where
  offsetDims := []
  collapsedSliceDims := [3]
  operandBatchingDims := [0, 1, 2]
  startIndicesBatchingDims := [0, 1, 2]
  startIndexMap := [3]
  indexVectorDim := 4
  sliceSizes := ![1, 1, 1, 1]
  wf := gather_S4x288x512x256_S4x288x512x1x1_S4x288x512x1_n_3_012_012_3_4_1111_wf

class Facts : Prop extends Facts₀ where

variable [Facts]
-- ==== Proof.Pieces.lean ====
/-
  What one grid point of the kernel leaves behind, case by case.

  The grid is (image b, row tile h), 4 × 9 points, the row tile innermost.  Every point updates a [32, 512] accumulator:
  the update `k0_pay2 x t acc` adds to `acc`, position by position, the cross-entropy of the pixel's 256 logits in
  the block `x` against its label in the block `t`.  The first tile of an image first clears the accumulator (the zero
  block `k0_pay1`), and the last tile of an image also writes the accumulator's total `k0_pay3` into the image's
  [1, 1, 1] output block.  The lemmas below read those facts off the stores the body's run found.
-/
import proofs.«425143_j35064113005059_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KV

open Cert.KernelIdeal Cert.KernelIdeal.Gen

variable {F : FTy → Type} [FloatOps F]

/-- The offsets of a load or store of a whole block are all zero. -/
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- At a row tile that is neither an image's first nor its last, the accumulator ends at the update `k0_pay2` of the
    logits block, the labels block and what it held before. -/
theorem sout_B (c : Dev nD) (i : grid0.Coords) (a2 : Memref sig .tc .vmem S1x256x32x512 .f32) (h2 : a2.IsWhole)
    (a3 : Memref sig .tc .vmem S1x32x512 .i32) (h3 : a3.IsWhole) (a4 : Memref sig .tc .vmem S1x1x1 .f32) (h4 : a4.IsWhole)
    (a5 : Memref sig .tc .vmem S32x512 .f32) (h5 : a5.IsWhole) (hc0 : ¬cond0_0 i) (hc1 : ¬cond0_1 i)
    (x0 : Vec F S1x256x32x512 .f32) (x1 : Vec F S1x32x512 .i32) (xs0 : Vec F S32x512 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz2]
  simp only [View.readAt_eq_ld, h2.read_unread, h3.read_unread, h5.read_unread, View.ld_unit_zero (S := S1x256x32x512) hz4,
    View.ld_unit_zero (S := S1x32x512) hz3, View.ld_unit_zero (S := S32x512) hz2]

/-- At an image's first row tile the accumulator is first set to the zero block `k0_pay1`, which the update then
    reads back: it ends at the update of the zero block. -/
theorem sout_A (c : Dev nD) (i : grid0.Coords) (a2 : Memref sig .tc .vmem S1x256x32x512 .f32) (h2 : a2.IsWhole)
    (a3 : Memref sig .tc .vmem S1x32x512 .i32) (h3 : a3.IsWhole) (a4 : Memref sig .tc .vmem S1x1x1 .f32) (h4 : a4.IsWhole)
    (a5 : Memref sig .tc .vmem S32x512 .f32) (h5 : a5.IsWhole) (hc0 : cond0_0 i) (hc1 : ¬cond0_1 i)
    (x0 : Vec F S1x256x32x512 .f32) (x1 : Vec F S1x32x512 .i32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S32x512) hz2, View.readCov_unit_zero (S := S32x512) _ hz2]
  simp only [View.readAt_eq_ld, h2.read_unread, h3.read_unread, View.ld_unit_zero (S := S1x256x32x512) hz4,
    View.ld_unit_zero (S := S1x32x512) hz3]

/-- At an image's last row tile the accumulator is updated as at any later tile … -/
theorem sout_C (c : Dev nD) (i : grid0.Coords) (a2 : Memref sig .tc .vmem S1x256x32x512 .f32) (h2 : a2.IsWhole)
    (a3 : Memref sig .tc .vmem S1x32x512 .i32) (h3 : a3.IsWhole) (a4 : Memref sig .tc .vmem S1x1x1 .f32) (h4 : a4.IsWhole)
    (a5 : Memref sig .tc .vmem S32x512 .f32) (h5 : a5.IsWhole) (hc0 : ¬cond0_0 i) (hc1 : cond0_1 i)
    (x0 : Vec F S1x256x32x512 .f32) (x1 : Vec F S1x32x512 .i32) (xs0 : Vec F S32x512 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz2]
  simp only [View.readAt_eq_ld, h2.read_unread, h3.read_unread, h5.read_unread, View.ld_unit_zero (S := S1x256x32x512) hz4,
    View.ld_unit_zero (S := S1x32x512) hz3, View.ld_unit_zero (S := S32x512) hz2]

/-- … and the image's output block is the total `k0_pay3` of the updated accumulator, read back. -/
theorem out_C (c : Dev nD) (i : grid0.Coords) (a2 : Memref sig .tc .vmem S1x256x32x512 .f32) (h2 : a2.IsWhole)
    (a3 : Memref sig .tc .vmem S1x32x512 .i32) (h3 : a3.IsWhole) (a4 : Memref sig .tc .vmem S1x1x1 .f32) (h4 : a4.IsWhole)
    (a5 : Memref sig .tc .vmem S32x512 .f32) (h5 : a5.IsWhole) (hc0 : ¬cond0_0 i) (hc1 : cond0_1 i)
    (x0 : Vec F S1x256x32x512 .f32) (x1 : Vec F S1x32x512 .i32) (xs0 : Vec F S32x512 .f32) :
    out0_C_2 c i a2 h2 a3 h3 a4 h4 a5 h5 hc0 hc1 x0 x1 xs0 = k0_pay3 (k0_pay2 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz3]
  simp only [View.readCov_unit_zero (S := S32x512) _ hz2, View.readAt_eq_ld, h2.read_unread, h3.read_unread, h5.read_unread,
    View.ld_unit_zero (S := S1x256x32x512) hz4, View.ld_unit_zero (S := S1x32x512) hz3, View.ld_unit_zero (S := S32x512) hz2]

end Cert.KernelIdeal.KV

end
-- ==== Proof.Chain.lean ====
/-
  The accumulator from grid point to grid point.

  The kernel's scratch is a [32, 512] accumulator that lives across the 9 row tiles of an image: the first tile of
  image b (grid point 9·b) starts it from the zero block, every tile adds its per-pixel losses to it, and the last tile
  (grid point 9·b + 8) writes its total to the image's output block.  `acc` is that recursion, stated over the grid
  points; the frame's own description of the scratch and of the output block after each point is shown to be it, by
  induction on the point.
-/
import proofs.«425143_j35064113005059_2_alg».proof.Proof.Gen.KernelIdeal.Frame
import proofs.«425143_j35064113005059_2_alg».proof.Proof.Pieces
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KV

open Cert.KernelIdeal Cert.KernelIdeal.Gen

variable {F : FTy → Type} [FloatOps F]

variable (m : (ℓ : Loc nD τ sig) → Buf (Elt F) ℓ)

/-- The logits block and the labels block of grid point `t`, at their literal types. -/
abbrev xblk (c : Dev nD) (t : Fin cfg0.N) : Vec F S1x256x32x512 .f32 := iblk m c 0 t
abbrev tblk (c : Dev nD) (t : Fin cfg0.N) : Vec F S1x32x512 .i32 := iblk m c 1 t

/-- The accumulator after grid point `n`: the update of the zero block at an image's first row tile (n ≡ 0 mod 9),
    the update of what the point before left at every other. -/
def acc (c : Dev nD) : (n : ℕ) → n < cfg0.N → Vec F S32x512 .f32
  | 0, h => k0_pay2 (xblk m c ⟨0, h⟩) (tblk m c ⟨0, h⟩) (k0_pay1 (F := F))
  | n + 1, h =>
    if (n + 1) % 9 = 0 then k0_pay2 (xblk m c ⟨n + 1, h⟩) (tblk m c ⟨n + 1, h⟩) (k0_pay1 (F := F))
    else k0_pay2 (xblk m c ⟨n + 1, h⟩) (tblk m c ⟨n + 1, h⟩) (acc c n (Nat.lt_of_succ_lt h))

/-- The scratch the frame's run carries from point to point is that accumulator: by induction on the point. -/
theorem scratch_eq (c : Dev nD) : ∀ (n : ℕ) (h : n < cfg0.N), (outsAt0 m c n h).2 = acc m c n h
  | 0, h => by
    rw [outsAt0_A m c ⟨0, h⟩ rfl (by dsimp only; omega)]
    dsimp only
    exact sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      scM0_0 (Memref.isWhole_whole _) _ _ (xblk m c ⟨0, h⟩) (tblk m c ⟨0, h⟩)
  | n + 1, h => by
    have hN : cfg0.N = 36 := N_0
    by_cases h0 : (n + 1) % 9 = 0
    · have h1 : ¬(n + 1) % 9 = 8 := by omega
      rw [outsAt0_A m c ⟨n + 1, h⟩ h0 h1]
      dsimp only
      rw [acc, if_pos h0]
      exact sout_A c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) _ _ (xblk m c ⟨n + 1, h⟩) (tblk m c ⟨n + 1, h⟩)
    · by_cases h1 : (n + 1) % 9 = 8
      · rw [outsAt0_C m c ⟨n + 1, h⟩ h0 h1]
        dsimp only
        rw [acc, if_neg h0]
        refine (sout_C c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) _ _ (xblk m c ⟨n + 1, h⟩) (tblk m c ⟨n + 1, h⟩) _).trans ?_
        exact congrArg (k0_pay2 (xblk m c ⟨n + 1, h⟩) (tblk m c ⟨n + 1, h⟩)) (scratch_eq c n (Nat.lt_of_succ_lt h))
      · rw [outsAt0_B m c ⟨n + 1, h⟩ h0 h1]
        dsimp only
        rw [acc, if_neg h0]
        refine (sout_B c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) scM0_0 (Memref.isWhole_whole _) _ _ (xblk m c ⟨n + 1, h⟩) (tblk m c ⟨n + 1, h⟩) _).trans ?_
        exact congrArg (k0_pay2 (xblk m c ⟨n + 1, h⟩) (tblk m c ⟨n + 1, h⟩)) (scratch_eq c n (Nat.lt_of_succ_lt h))

/-- At an image's last row tile the output block holds the total of the accumulator as that point leaves it. -/
theorem output_eq (c : Dev nD) (t : Fin cfg0.N) (h8 : t.val % 9 = 8) :
    (outsAt0 m c t.val t.isLt).1 = k0_pay3 (acc m c t.val t.isLt) := by
  obtain ⟨n, h⟩ := t
  cases n with
  | zero => exact absurd h8 (by dsimp only; omega)
  | succ n =>
    have h0 : ¬(n + 1) % 9 = 0 := by dsimp only at h8; omega
    have h1 : (n + 1) % 9 = 8 := h8
    rw [outsAt0_C m c ⟨n + 1, h⟩ h0 h1]
    dsimp only
    rw [acc, if_neg h0]
    refine (out_C c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) scM0_0 (Memref.isWhole_whole _) _ _ (xblk m c ⟨n + 1, h⟩) (tblk m c ⟨n + 1, h⟩) _).trans ?_
    exact congrArg (fun a => k0_pay3 (k0_pay2 (xblk m c ⟨n + 1, h⟩) (tblk m c ⟨n + 1, h⟩) a)) (scratch_eq m c n (Nat.lt_of_succ_lt h))

end Cert.KernelIdeal.KV

end
-- ==== Proof.Spec.lean ====
/-
  Softmax cross-entropy of one pixel, and its mean over a [4, 256, 288, 512] array of logits, on the extended reals.

  For the 256 logits `x` of a pixel and a label `k`: with `top x = max_c x c` and `mass x = ∑_c exp (x c - top x)`,
  the loss is `log (mass x) - (x k - top x)`.  It is written twice: `lossK` takes the label as a 32-bit word and
  picks `x k - top x` out by a sum over the classes of a select on "class = label" (every other term the zero word);
  `lossR` takes the label as a class index and is the negated log-softmax `-((x k - top x) - log (0 + mass x))`,
  its maximum and its sum started from the words -∞ and 0.  The mean is the sum of the pixels' losses over the
  4·288·512 pixels divided by the word 589824.0: `meanK` sums image by image, inside an image position by position of a
  [32, 512] tile and, innermost, over the 9 row tiles of the image; `meanR` sums over the pixel indices as they come.
-/
import Idealize.ShloMosaic.PureOps.Ideal
import Idealize.ShloMosaic.Lib.ValueIdx

noncomputable section

namespace Cert.CE

open Idealize.ShloMosaic Idealize.ShloMosaic.ValueIdx

/-- The words -∞, 0 and 589824 = 4·288·512 as extended reals. -/
abbrev ninf : EReal := Ideal.ofBits .f32 0xFF800000#32
abbrev zero : EReal := Ideal.ofBits .f32 0x00000000#32
abbrev count : EReal := Ideal.ofBits .f32 0x49100000#32

/-- The logits' and the labels' arrays. -/
abbrev Logits : Type := (⟨4, ![4, 256, 288, 512]⟩ : Shape).Idx → EReal
abbrev Labels : Type := (⟨3, ![4, 288, 512]⟩ : Shape).Idx → BitVec 32

/-- The largest of a pixel's 256 logits (a fold of `max` from -∞). -/
def top (x : Fin 256 → EReal) : EReal := (Finset.univ : Finset (Fin 256)).fold max ninf x

/-- The softmax's denominator after the shift by the largest logit. -/
def mass (x : Fin 256 → EReal) : EReal := ∑ c : Fin 256, Ideal.exp (x c - top x)

/-- The pixel's loss with the label a word: the shifted logit of the labelled class is selected class by class. -/
def lossK (x : Fin 256 → EReal) (t : BitVec 32) : EReal :=
  Ideal.log (mass x)
    - ∑ c : Fin 256, Scalar.select (IntOp.cmpi .eq (BitVec.ofNat 32 c.val) t) (x c - top x) zero

/-- The pixel's loss with the label a class: minus the log-softmax at that class. -/
def lossR (x : Fin 256 → EReal) (k : Fin 256) : EReal :=
  -((x k - max ninf (top x)) - Ideal.log (zero + ∑ c : Fin 256, Ideal.exp (x c - max ninf (top x))))

/-- The 256 logits of pixel (b, y, w). -/
def pix (X : Logits) (b : Fin 4) (y : Fin 288) (w : Fin 512) : Fin 256 → EReal := fun c => X (ix4 b c y w)

/-- Row `r` of row tile `h`: image row 32·h + r. -/
def row (h : Fin 9) (r : Fin 32) : Fin 288 := ⟨32 * h.val + r.val, by have := h.isLt; have := r.isLt; omega⟩

/-- The mean loss, summed image by image, tile position by tile position, the row tiles innermost. -/
def meanK (X : Logits) (T : Labels) : EReal :=
  Ideal.div (zero + ∑ b : Fin 4, ∑ r : Fin 32, ∑ w : Fin 512, ∑ h : Fin 9,
    lossK (pix X b (row h r) w) (T (ix3 b (row h r) w))) count

/-- The mean loss, summed over the pixel indices, the labels given as classes. -/
def meanR (X : Logits) (k : (⟨3, ![4, 288, 512]⟩ : Shape).Idx → Fin 256) : EReal :=
  Ideal.div (zero + ∑ j : (⟨3, ![4, 288, 512]⟩ : Shape).Idx, lossR (pix X (j 0) (j 1) (j 2)) (k j)) count

end Cert.CE

end
-- ==== Proof.Payload.lean ====
/-
  The accumulator's update read at one position of the tile.

  A grid point holds a [1, 256, 32, 512] block of logits and a [1, 32, 512] block of labels.  At tile position (r, w)
  the body takes the maximum M of the 256 logits x_c of that pixel, the sum S of exp (x_c - M), and the sum over the
  classes of "x_c - M if c is the label, else 0"; the accumulator gains log S minus that sum: `Cert.CE.lossK` of the
  pixel's logits and its label word.  The layout operations in between (views that drop or add a unit axis, the
  broadcast of the per-pixel maximum along the classes) only move indices.
-/
import proofs.«425143_j35064113005059_2_alg».proof.Proof.Gen.KernelIdeal.Frame
import proofs.«425143_j35064113005059_2_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.KV

open Cert.KernelIdeal Cert.KernelIdeal.Gen

/-! ## The body's layout operations read at an index -/

section Layout
variable {α : Type}

/-- A [1, 256, 32, 512] block viewed [256, 32, 512]: (c, r, w) reads (0, c, r, w). -/
theorem cast_logits (v : S1x256x32x512.Idx → α) (c : Fin 256) (r : Fin 32) (w : Fin 512) :
    shapeCast S256x32x512 v shapeCasts_S1x256x32x512_S256x32x512 (ix3 c r w) = v (ix4 0 c r w) := by
  refine (shapeCast_dropUnit_apply ![256, 32, 512] v _ (ix3 c r w)).trans (congrArg v ?_)
  funext a; match a with | ⟨0, _⟩ => rfl | ⟨1, _⟩ => rfl | ⟨2, _⟩ => rfl | ⟨3, _⟩ => rfl

/-- A [1, 32, 512] block viewed [32, 512]: (r, w) reads (0, r, w). -/
theorem cast_drop (v : S1x32x512.Idx → α) (r : Fin 32) (w : Fin 512) :
    shapeCast S32x512 v shapeCasts_S1x32x512_S32x512 (ix2 r w) = v (ix3 0 r w) := by
  refine (shapeCast_dropUnit_apply ![32, 512] v _ (ix2 r w)).trans (congrArg v ?_)
  funext a; match a with | ⟨0, _⟩ => rfl | ⟨1, _⟩ => rfl | ⟨2, _⟩ => rfl

/-- A [32, 512] vector viewed [1, 32, 512]: (0, r, w) reads (r, w). -/
theorem cast_add (v : S32x512.Idx → α) (z : Fin 1) (r : Fin 32) (w : Fin 512) :
    shapeCast S1x32x512 v shapeCasts_S32x512_S1x32x512 (ix3 z r w) = v (ix2 r w) := by
  refine (shapeCast_addUnit_apply ![32, 512] v _ (ix3 z r w)).trans (congrArg v ?_)
  funext a; match a with | ⟨0, _⟩ => rfl | ⟨1, _⟩ => rfl

/-- A [1, 32, 512] vector broadcast along the classes: (c, r, w) reads (0, r, w). -/
theorem bcast_classes (v : S1x32x512.Idx → α) (c : Fin 256) (r : Fin 32) (w : Fin 512) :
    broadcastTo S256x32x512 v broadcasts_S1x32x512_S256x32x512 (ix3 c r w) = v (ix3 0 r w) :=
  broadcastTo_apply v _ (ix3 c r w) (ix3 0 r w) (fun a => match a with
    | ⟨0, _⟩ => by show 0 = if (1 : Nat) = 1 then 0 else _; rw [if_pos rfl]
    | ⟨1, _⟩ => by show r.val = if (32 : Nat) = 1 then 0 else r.val; rw [if_neg (by decide)]
    | ⟨2, _⟩ => by show w.val = if (512 : Nat) = 1 then 0 else w.val; rw [if_neg (by decide)])

end Layout

/-- The class index along axis 0. -/
theorem iota_classes (c : Fin 256) (r : Fin 32) (w : Fin 512) :
    iota .tc S256x32x512 32 [0] iota_S256x32x512_d0_w32 (ix3 c r w) = BitVec.ofNat 32 c.val :=
  iota_single_apply .tc S256x32x512 32 0 iota_S256x32x512_d0_w32 (ix3 c r w)

/-- The index of class `k` over position (r, w). -/
theorem lift_classes (r : Fin 32) (w : Fin 512) (k : Fin 256) :
    reduces_S256x32x512_S32x512.lift (ix2 r w) k = ix3 k r w := by
  funext a; apply Fin.ext; match a with | ⟨0, _⟩ => rfl | ⟨1, _⟩ => rfl | ⟨2, _⟩ => rfl

/-- The maximum over the classes at position (r, w), at the ideal instance. -/
theorem max_classes (v : FVec Ideal S256x32x512 .f32) (hφ : FKind.Formats .f32)
    (hacc : (0xFF800000#32 : BitVec FTy.f32.bits) = FKind.maximumf.neutral .f32 hφ) (r : Fin 32) (w : Fin 512) :
    multiReduction .maximumf [0] S32x512 v 0xFF800000#32 reduces_S256x32x512_S32x512 hφ hacc (ix2 r w)
      = Cert.CE.top (fun c => v (ix3 c r w)) := by
  rw [Ideal.multiReduction_maximumf_single]
  unfold Cert.CE.top
  exact congrArg (fun f : Fin 256 → EReal => Finset.fold max (Ideal.ofBits .f32 0xFF800000#32) f Finset.univ)
    (funext fun k => congrArg v (lift_classes r w k))

/-- The sum over the classes at position (r, w), at the ideal instance. -/
theorem sum_classes (v : FVec Ideal S256x32x512 .f32) (hφ : FKind.Formats .f32)
    (hacc : (0x00000000#32 : BitVec FTy.f32.bits) = FKind.add.neutral .f32 hφ) (r : Fin 32) (w : Fin 512) :
    multiReduction .add [0] S32x512 v 0x00000000#32 reduces_S256x32x512_S32x512 hφ hacc (ix2 r w)
      = ∑ c : Fin 256, v (ix3 c r w) := by
  rw [Ideal.multiReduction_add_single]
  exact Finset.sum_congr rfl fun k _ => congrArg v (lift_classes r w k)

/-- The pointwise transcendental and integer operations at an index. -/
theorem exp_at {s : Shape} (v : FVec Ideal s .f32) (i : s.Idx) : exp v i = Ideal.exp (v i) := rfl
theorem log_at {s : Shape} (v : FVec Ideal s .f32) (i : s.Idx) : log v i = Ideal.log (v i) := rfl
theorem cmpi_at {s : Shape} {n : Nat} (p : CmpIPredicate) (x y : IVec s n) (i : s.Idx) : cmpi p x y i = IntOp.cmpi p (x i) (y i) := rfl

/-! ## The update of the accumulator, position by position -/

/-- The logits of position (r, w) after the shift by their maximum. -/
theorem shifted_at (x0 : FVec Ideal S1x256x32x512 .f32) (hφ : FKind.Formats .f32)
    (hacc : (0xFF800000#32 : BitVec FTy.f32.bits) = FKind.maximumf.neutral .f32 hφ) (c : Fin 256) (r : Fin 32) (w : Fin 512) :
    subf (F := Ideal) (shapeCast S256x32x512 x0 shapeCasts_S1x256x32x512_S256x32x512)
        (broadcastTo S256x32x512
          (shapeCast S1x32x512
            (multiReduction .maximumf [0] S32x512 (shapeCast S256x32x512 x0 shapeCasts_S1x256x32x512_S256x32x512) 0xFF800000#32
              reduces_S256x32x512_S32x512 hφ hacc)
            shapeCasts_S32x512_S1x32x512)
          broadcasts_S1x32x512_S256x32x512) (ix3 c r w)
      = x0 (ix4 0 c r w) - Cert.CE.top (fun k => x0 (ix4 0 k r w)) := by
  rw [subf_apply, cast_logits, bcast_classes, cast_add]
  refine congrArg (x0 (ix4 0 c r w) - ·) ?_
  refine (max_classes _ hφ hacc r w).trans ?_
  simp only [cast_logits]

/-- THE UPDATE: at position (r, w) of the tile the accumulator gains the cross-entropy of that pixel's 256 logits
    (the block's column (·, r, w)) against its label word. -/
theorem pay2_apply (x0 : Vec Ideal S1x256x32x512 .f32) (x1 : Vec Ideal S1x32x512 .i32) (a : Vec Ideal S32x512 .f32)
    (r : Fin 32) (w : Fin 512) :
    k0_pay2 (F := Ideal) x0 x1 a (ix2 r w)
      = a (ix2 r w) + Cert.CE.lossK (fun c => x0 (ix4 0 c r w)) (x1 (ix3 0 r w)) := by
  unfold k0_pay2
  dsimp only
  simp only [shapeCast_self, addf_apply, subf_apply, cast_drop, cast_add, log_at]
  refine congrArg (a (ix2 r w) + ·) ?_
  unfold Cert.CE.lossK
  refine congrArg₂ (fun p q : EReal => Ideal.log p - q) ?_ ?_
  · refine (sum_classes _ _ _ r w).trans ?_
    unfold Cert.CE.mass
    refine Finset.sum_congr rfl fun c _ => ?_
    rw [exp_at]
    exact congrArg Ideal.exp (shifted_at x0 _ _ c r w)
  · refine (sum_classes _ _ _ r w).trans ?_
    refine Finset.sum_congr rfl fun c _ => ?_
    rw [select_apply, cmpi_at, iota_classes, bcast_classes, cast_add, cast_drop, broadcast_apply]
    exact congrArg (fun s => Scalar.select (IntOp.cmpi .eq (BitVec.ofNat 32 c.val) (x1 (ix3 0 r w))) s Cert.CE.zero) (shifted_at x0 _ _ c r w)

end Cert.KernelIdeal.KV

end
-- ==== Proof.Tiles.lean ====
/-
  The accumulator in closed form.

  Grid point t = 9·b + h stages the logits block (b, ·, 32·h … 32·h + 31, ·) and the labels block (b, 32·h … 32·h + 31, ·):
  position (r, w) of the blocks is the pixel at row 32·h + r, column w of image b.  So one update adds, at (r, w), the
  loss of that pixel, and after point n the accumulator holds at (r, w) the sum of the losses of the pixels
  (n / 9, 32·h' + r, w) over the row tiles h' = 0 … n % 9 — by induction on the point, the sum starting anew at every
  image's first tile.
-/
import proofs.«425143_j35064113005059_2_alg».proof.Proof.Chain
import proofs.«425143_j35064113005059_2_alg».proof.Proof.Payload

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen

variable (m : (ℓ : Loc nD τ sig) → Buf (Elt Ideal) ℓ)

/-- The two argument arrays as the launch finds them. -/
abbrev logitsOf (c : Dev nD) : Cert.CE.Logits := m ((c : Thread nD τ).loc main_arg0)
abbrev labelsOf (c : Dev nD) : Cert.CE.Labels := m ((c : Thread nD τ).loc main_arg1)

/-- Image row 32·h + r, and the image of grid point n, as total functions of the naturals. -/
def rowN (h : ℕ) (r : Fin 32) : Fin 288 := ⟨(32 * h + r.val) % 288, Nat.mod_lt _ (by decide)⟩
def imgN (n : ℕ) : Fin 4 := ⟨(n / 9) % 4, Nat.mod_lt _ (by decide)⟩

/-- The block indices of the three windows at grid point t = 9·b + h: the logits' block is (b, 0, h, 0), the labels'
    (b, h, 0), the output's (b, 0, 0).  Decided over the 36 points. -/
theorem idx_logits : ∀ t : Fin cfg0.N, win0_0.index t (0 : Fin 4) = t.val / 9 ∧ win0_0.index t (1 : Fin 4) = 0
    ∧ win0_0.index t (2 : Fin 4) = t.val % 9 ∧ win0_0.index t (3 : Fin 4) = 0 :=
  (by decide +kernel : ∀ t : Fin grid0.N, _)
theorem idx_labels : ∀ t : Fin cfg0.N, win0_1.index t (0 : Fin 3) = t.val / 9 ∧ win0_1.index t (1 : Fin 3) = t.val % 9
    ∧ win0_1.index t (2 : Fin 3) = 0 :=
  (by decide +kernel : ∀ t : Fin grid0.N, _)
theorem idx_out : ∀ t : Fin cfg0.N, win0_2.index t (0 : Fin 3) = t.val / 9 ∧ win0_2.index t (1 : Fin 3) = 0
    ∧ win0_2.index t (2 : Fin 3) = 0 :=
  (by decide +kernel : ∀ t : Fin grid0.N, _)

/-- The logits block of point t read at (·, k, r, w): image t / 9, class k, row 32·(t % 9) + r, column w. -/
theorem xblk_apply (c : Dev nD) (t : Fin cfg0.N) (z : Fin 1) (k : Fin 256) (r : Fin 32) (w : Fin 512) :
    xblk m c t (ix4 z k r w) = logitsOf m c (ix4 (imgN t.val) k (rowN (t.val % 9) r) w) := by
  obtain ⟨e0, e1, e2, e3⟩ := idx_logits t
  have hN : t.val < 36 := lt_of_lt_of_eq t.isLt (show cfg0.N = 36 from N_0)
  show V m c main_arg0 (((cfg0.win 0).blk t).view.emb (ix4 z k r w)) = _
  refine congrArg (m ((c : Thread nD τ).loc main_arg0)) (funext fun a => Fin.ext ?_)
  match a with
  | ⟨0, _⟩ => show win0_0.index t (0 : Fin 4) * 1 + 1 * z.val = (t.val / 9) % 4; have := z.isLt; omega
  | ⟨1, _⟩ => show win0_0.index t (1 : Fin 4) * 256 + 1 * k.val = k.val; omega
  | ⟨2, _⟩ => show win0_0.index t (2 : Fin 4) * 32 + 1 * r.val = (32 * (t.val % 9) + r.val) % 288; have := r.isLt; omega
  | ⟨3, _⟩ => show win0_0.index t (3 : Fin 4) * 512 + 1 * w.val = w.val; omega

/-- The labels block of point t read at (·, r, w). -/
theorem tblk_apply (c : Dev nD) (t : Fin cfg0.N) (z : Fin 1) (r : Fin 32) (w : Fin 512) :
    tblk m c t (ix3 z r w) = labelsOf m c (ix3 (imgN t.val) (rowN (t.val % 9) r) w) := by
  obtain ⟨e0, e1, e2⟩ := idx_labels t
  have hN : t.val < 36 := lt_of_lt_of_eq t.isLt (show cfg0.N = 36 from N_0)
  show V m c main_arg1 (((cfg0.win 1).blk t).view.emb (ix3 z r w)) = _
  refine congrArg (m ((c : Thread nD τ).loc main_arg1)) (funext fun a => Fin.ext ?_)
  match a with
  | ⟨0, _⟩ => show win0_1.index t (0 : Fin 3) * 1 + 1 * z.val = (t.val / 9) % 4; have := z.isLt; omega
  | ⟨1, _⟩ => show win0_1.index t (1 : Fin 3) * 32 + 1 * r.val = (32 * (t.val % 9) + r.val) % 288; have := r.isLt; omega
  | ⟨2, _⟩ => show win0_1.index t (2 : Fin 3) * 512 + 1 * w.val = w.val; omega

/-- The loss of the pixel at row 32·h + r, column w of image b. -/
def lossAt (c : Dev nD) (b : Fin 4) (h : ℕ) (r : Fin 32) (w : Fin 512) : EReal :=
  Cert.CE.lossK (Cert.CE.pix (logitsOf m c) b (rowN h r) w) (labelsOf m c (ix3 b (rowN h r) w))

/-- One update, on the blocks of grid point t: position (r, w) gains the loss of its pixel in row tile t % 9 of
    image t / 9. -/
theorem step_apply (c : Dev nD) (t : Fin cfg0.N) (a : Vec Ideal S32x512 .f32) (r : Fin 32) (w : Fin 512) :
    k0_pay2 (F := Ideal) (xblk m c t) (tblk m c t) a (ix2 r w)
      = a (ix2 r w) + lossAt m c (imgN t.val) (t.val % 9) r w := by
  refine (pay2_apply (xblk m c t) (tblk m c t) a r w).trans ?_
  refine congrArg (a (ix2 r w) + ·) ?_
  unfold lossAt Cert.CE.pix
  refine (congrArg (Cert.CE.lossK fun c' => xblk m c t (ix4 0 c' r w)) (tblk_apply m c t 0 r w)).trans ?_
  exact congrArg (fun x => Cert.CE.lossK x (labelsOf m c (ix3 (imgN t.val) (rowN (t.val % 9) r) w)))
    (funext fun k => xblk_apply m c t 0 k r w)

/-- The zero block holds the zero word. -/
theorem pay1_apply (r : Fin 32) (w : Fin 512) : k0_pay1 (F := Ideal) (ix2 r w) = 0 := by
  unfold k0_pay1
  rw [shapeCast_self, broadcast_apply]
  exact Ideal.ofBits_zero_f32

/-- THE ACCUMULATOR IN CLOSED FORM: after grid point n, position (r, w) holds the losses of that position's pixels in
    the row tiles 0 … n % 9 of image n / 9. -/
theorem acc_apply (c : Dev nD) : ∀ (n : ℕ) (hn : n < cfg0.N) (r : Fin 32) (w : Fin 512),
    acc m c n hn (ix2 r w) = ∑ h ∈ Finset.range (n % 9 + 1), lossAt m c (imgN n) h r w
  | 0, hn, r, w => by
    rw [acc]
    refine (step_apply m c ⟨0, hn⟩ _ r w).trans ?_
    rw [pay1_apply, zero_add]
    simp
  | n + 1, hn, r, w => by
    rw [acc]
    by_cases h0 : (n + 1) % 9 = 0
    · rw [if_pos h0]
      refine (step_apply m c ⟨n + 1, hn⟩ _ r w).trans ?_
      rw [pay1_apply, zero_add]
      show lossAt m c (imgN (n + 1)) ((n + 1) % 9) r w = _
      rw [h0]
      simp
    · rw [if_neg h0]
      refine (step_apply m c ⟨n + 1, hn⟩ _ r w).trans ?_
      rw [acc_apply c n (Nat.lt_of_succ_lt hn) r w]
      show _ + lossAt m c (imgN (n + 1)) ((n + 1) % 9) r w = _
      have e1 : (n + 1) % 9 = n % 9 + 1 := by omega
      have e2 : imgN (n + 1) = imgN n := Fin.ext (by show (n + 1) / 9 % 4 = n / 9 % 4; omega)
      rw [e1, e2, Finset.sum_range_succ (fun h => lossAt m c (imgN n) h r w) (n % 9 + 1)]

end Cert.KernelIdeal.KV

end
-- ==== Proof.SpecLaws.lean ====
/-
  Laws of the per-pixel cross-entropy on the extended reals.
-/
import proofs.«425143_j35064113005059_2_alg».proof.Proof.Spec

noncomputable section

namespace Cert.CE

open Idealize.ShloMosaic Idealize.ShloMosaic.ValueIdx

/-- The word -∞ is the bottom element. -/
theorem ninf_eq_bot : ninf = ⊥ := by simp [Ideal.ofBits, Ideal.ieee]

/-- The word 0 is zero. -/
theorem zero_eq_zero : zero = 0 := by simp [Ideal.ofBits, Ideal.ieee]

/-- The largest of finitely many finite logits is finite: it is at least the first logit, hence not -∞, and it is
    below +∞ because -∞ and every logit are. -/
theorem top_real (x : Fin 256 → EReal) (hx : ∀ c, ∃ r : ℝ, x c = (r : EReal)) : ∃ t : ℝ, top x = (t : EReal) := by
  have hbot : top x ≠ ⊥ := by
    obtain ⟨r, hr⟩ := hx 0
    have h : x 0 ≤ top x := (Finset.le_fold_max _).2 (Or.inr ⟨0, Finset.mem_univ _, le_rfl⟩)
    intro h0
    rw [h0, hr] at h
    exact absurd h (not_le.2 (EReal.bot_lt_coe r))
  have htop : top x ≠ ⊤ := by
    have h : top x < ⊤ := (Finset.fold_max_lt _).2 ⟨by rw [ninf_eq_bot]; exact bot_lt_top, fun c _ => by
      obtain ⟨r, hr⟩ := hx c
      rw [hr]; exact EReal.coe_lt_top r⟩
    exact ne_of_lt h
  exact ⟨(top x).toReal, (EReal.coe_toReal htop hbot).symm⟩

/-- A select on the comparison "a = b" of two words is the if-then-else on the equation. -/
theorem select_cmpi_eq {α : Type} (a b : BitVec 32) (u z : α) :
    Scalar.select (IntOp.cmpi .eq a b) u z = if a = b then u else z := by
  by_cases h : a = b
  · subst h; simp [Scalar.select, IntOp.cmpi]
  · have hb : (a == b) = false := by simpa using h
    simp [Scalar.select, IntOp.cmpi, hb, h]

/-- Two classes are equal as 32-bit words only if they are equal: both are below 256 < 2^32. -/
theorem ofNat_class_inj (c k : Fin 256) : BitVec.ofNat 32 c.val = BitVec.ofNat 32 k.val ↔ c = k := by
  constructor
  · intro h
    have h' := congrArg BitVec.toNat h
    simp only [BitVec.toNat_ofNat] at h'
    have := c.isLt; have := k.isLt
    apply Fin.ext; omega
  · rintro rfl; rfl

/-- For a finite `a` and any extended real `L`: L - a = -(a - L). -/
theorem sub_real_eq_neg (L : EReal) (a : ℝ) : L - (a : EReal) = -((a : EReal) - L) := by
  rw [EReal.neg_sub (Or.inl (EReal.coe_ne_bot a)) (Or.inl (EReal.coe_ne_top a)), sub_eq_add_neg, add_comm]

/-- For finite logits and a label word that is a class, the two spellings of the pixel's loss agree. -/
theorem lossK_eq_lossR (x : Fin 256 → EReal) (hx : ∀ c, ∃ r : ℝ, x c = (r : EReal)) (k : Fin 256) :
    lossK x (BitVec.ofNat 32 k.val) = lossR x k := by
  obtain ⟨t, ht⟩ := top_real x hx
  obtain ⟨r, hr⟩ := hx k
  have hmax : max ninf (top x) = top x := by rw [ninf_eq_bot]; exact max_eq_right bot_le
  have hsum : ∑ c : Fin 256, Scalar.select (IntOp.cmpi .eq (BitVec.ofNat 32 c.val) (BitVec.ofNat 32 k.val)) (x c - top x) zero
      = x k - top x := by
    simp only [select_cmpi_eq, ofNat_class_inj, zero_eq_zero]
    rw [Finset.sum_ite_eq' Finset.univ k]
    simp
  unfold lossK lossR
  rw [hsum, hmax, zero_eq_zero, zero_add]
  show Ideal.log (mass x) - (x k - top x) = -((x k - top x) - Ideal.log (mass x))
  rw [hr, ht, ← EReal.coe_sub]
  exact sub_real_eq_neg _ _

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- An image row is a row tile and a row inside it: y = 32·h + r. -/
def rowEquiv : Fin 9 × Fin 32 ≃ Fin 288 where
  toFun p := row p.1 p.2
  invFun y := (⟨y.val / 32, by have := y.isLt; omega⟩, ⟨y.val % 32, Nat.mod_lt _ (by norm_num)⟩)
  left_inv p := by
    obtain ⟨h, r⟩ := p
    have := h.isLt; have := r.isLt
    refine Prod.ext (Fin.ext ?_) (Fin.ext ?_)
    · show (32 * h.val + r.val) / 32 = h.val
      omega
    · show (32 * h.val + r.val) % 32 = r.val
      omega
  right_inv y := by
    apply Fin.ext
    show 32 * (y.val / 32) + y.val % 32 = y.val
    omega

/-- A sum over the pixels of the [4, 288, 512] index set, re-ordered image by image, tile position by tile position,
    the 9 row tiles innermost. -/
theorem sum_tiles {M : Type*} [AddCommMonoid M] (f : Fin 4 → Fin 288 → Fin 512 → M) :
    ∑ j : (⟨3, ![4, 288, 512]⟩ : Shape).Idx, f (j 0) (j 1) (j 2)
      = ∑ b : Fin 4, ∑ r : Fin 32, ∑ w : Fin 512, ∑ h : Fin 9, f b (row h r) w := by
  rw [sum_idx3 (fun j : (⟨3, ![4, 288, 512]⟩ : Shape).Idx => f (j 0) (j 1) (j 2))]
  refine Finset.sum_congr rfl fun b _ => ?_
  show ∑ y : Fin 288, ∑ w : Fin 512, f b y w = _
  rw [← Equiv.sum_comp rowEquiv (fun y => ∑ w : Fin 512, f b y w), Fintype.sum_prod_type, Finset.sum_comm]
  refine Finset.sum_congr rfl fun r _ => ?_
  rw [Finset.sum_comm]
  rfl

/-- For finite logits and labels in range the two means agree. -/
theorem meanK_eq_meanR (X : Logits) (T : Labels) (hX : ∀ i, ∃ r : ℝ, X i = (r : EReal)) (hT : ∀ j, (T j).toNat < 256) :
    meanK X T = meanR X (fun j => ⟨(T j).toNat, hT j⟩) := by
  unfold meanK meanR
  have hsum := sum_tiles (fun b y w => lossK (pix X b y w) (T (ix3 b y w)))
  rw [← hsum]
  congr 2
  refine Finset.sum_congr rfl fun j _ => ?_
  have hj : T (ix3 (j 0) (j 1) (j 2)) = BitVec.ofNat 32 (T j).toNat := by
    have hi : (ix3 (j 0) (j 1) (j 2) : (⟨3, ![4, 288, 512]⟩ : Shape).Idx) = j := (eq_ix3 j).symm
    rw [hi, BitVec.ofNat_toNat, BitVec.setWidth_eq]
  have h := lossK_eq_lossR (pix X (j 0) (j 1) (j 2)) (fun c => hX _) ⟨(T j).toNat, hT j⟩
  exact (congrArg (lossK (pix X (j 0) (j 1) (j 2))) hj).trans h

end Cert.CE

end
-- ==== Proof.Output.lean ====
/-
  The output array, the host tail, and the kernel's run read as a value.

  The last row tile of image b (grid point 9·b + 8) writes the total of the accumulator — by then the sum over all 9
  row tiles of every position's pixel losses — into block b of the [4, 1, 1] output array; those four points cover the
  array, so it ends at the four images' totals.  The host then adds the four totals to the zero word and divides by
  the word 589824: the mean loss `Cert.CE.meanK`.
-/
import proofs.«425143_j35064113005059_2_alg».proof.Proof.Tiles
import proofs.«425143_j35064113005059_2_alg».proof.Proof.SpecLaws
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen

variable (m : (ℓ : Loc nD τ sig) → Buf (Elt Ideal) ℓ) (ρ : Dev nD → PrngReg)

/-- A sum over both axes of a [1, 32, 512] vector into [1] is the sum of all its entries. -/
theorem total_at (u : FVec Ideal S1x32x512 .f32) (hφ : FKind.Formats .f32)
    (hacc : (0x00000000#32 : BitVec FTy.f32.bits) = FKind.add.neutral .f32 hφ) (j : S1.Idx) :
    multiReduction .add [1, 2] S1 u 0x00000000#32 reduces_S1x32x512_S1 hφ hacc j = ∑ i : S1x32x512.Idx, u i :=
  Ideal.multiReduction_add_total u _ reduces_S1x32x512_S1 (fun b => by fin_cases b; rfl) hφ hacc j

/-- f32 is a format the reductions take, and the zero word is the neutral element of its sums. -/
theorem fmt32 : FKind.Formats .f32 := Or.inl rfl
theorem add_neutral32 : (0x00000000#32 : BitVec FTy.f32.bits) = FKind.add.neutral .f32 fmt32 := by decide

/-- The total of a [32, 512] accumulator, as the last row tile of an image computes it into the [1, 1, 1] block. -/
theorem pay3_apply (v : Vec Ideal S32x512 .f32) (y : S1x1x1.Idx) :
    k0_pay3 (F := Ideal) v y = ∑ r : Fin 32, ∑ w : Fin 512, v (ix2 r w) := by
  unfold k0_pay3
  dsimp only
  refine (total_at _ fmt32 add_neutral32 _).trans ?_
  show ∑ i : S1x32x512.Idx, v (Shape.reshapeEquiv shapeCasts_S32x512_S1x32x512 i) = _
  rw [Equiv.sum_comp (Shape.reshapeEquiv shapeCasts_S32x512_S1x32x512) v]
  exact sum_idx2 v

/-- The sum of the losses of image b's pixels: position by position of the tile, the 9 row tiles innermost. -/
def imgTotal (c : Dev nD) (b : Fin 4) : EReal :=
  ∑ r : Fin 32, ∑ w : Fin 512, ∑ h : Fin 9,
    Cert.CE.lossK (Cert.CE.pix (logitsOf m c) b (Cert.CE.row h r) w) (labelsOf m c (ix3 b (Cert.CE.row h r) w))

/-- The [4, 1, 1] array of the images' totals. -/
def totals (c : Dev nD) : S4x1x1.Idx → EReal := fun i => imgTotal m c (i 0)

/-- After an image's last row tile, position (r, w) of the accumulator holds the losses of its pixels in all 9 tiles. -/
theorem acc_last (c : Dev nD) (t : Fin cfg0.N) (h8 : t.val % 9 = 8) (r : Fin 32) (w : Fin 512) :
    acc m c t.val t.isLt (ix2 r w)
      = ∑ h : Fin 9, Cert.CE.lossK (Cert.CE.pix (logitsOf m c) (imgN t.val) (Cert.CE.row h r) w)
          (labelsOf m c (ix3 (imgN t.val) (Cert.CE.row h r) w)) := by
  rw [acc_apply m c t.val t.isLt r w, h8, Finset.sum_range (fun h => lossAt m c (imgN t.val) h r w)]
  refine Finset.sum_congr rfl fun h _ => ?_
  have e : rowN h.val r = Cert.CE.row h r := Fin.ext (by
    show (32 * h.val + r.val) % 288 = 32 * h.val + r.val
    have := h.isLt; have := r.isLt; omega)
  unfold lossAt
  rw [e]

/-- WHAT AN IMAGE'S LAST ROW TILE WRITES BACK is that image's block of `totals`. -/
theorem flushed_eq (c : Dev nD) (t : Fin cfg0.N) (hf : (cfg0.win 2).flush t = true) :
    (dats m 0 c).flushed 2 t = ((cfg0.win 2).blk t).view.read (Elt Ideal) (totals m c) := by
  have h8 : t.val % 9 = 8 := (flush0_2 t).mp hf
  obtain ⟨e0, e1, e2⟩ := idx_out t
  have hN : t.val < 36 := lt_of_lt_of_eq t.isLt (show cfg0.N = 36 from N_0)
  show (cfg0.win 2).cut (grid0.coords t) ((dats m 0 c).after 2 t) = _
  rw [after0_2, output_eq m c t h8]
  funext y
  show k0_pay3 (F := Ideal) (acc m c t.val t.isLt) y = totals m c (((cfg0.win 2).blk t).view.emb y)
  rw [pay3_apply]
  have eb : (((cfg0.win 2).blk t).view.emb y) 0 = imgN t.val := Fin.ext (by
    show win0_2.index t (0 : Fin 3) * 1 + 1 * (y 0).val = (t.val / 9) % 4
    have : (y 0).val < 1 := (y 0).isLt
    omega)
  unfold totals imgTotal
  rw [eb]
  exact Finset.sum_congr rfl fun r _ => Finset.sum_congr rfl fun w _ => acc_last m c t h8 r w

/-- So the output array ends at the images' totals: block b is written by grid point 9·b + 8. -/
theorem final_out (c : Dev nD) : (dats m 0 c).arrAt 2 cfg0.N = totals m c :=
  (dats m 0 c).arrAt_eq_of_cover 2 (totals m c) (flushed_eq m c) fun i => by
    have hi0 : (i 0).val < 4 := (i 0).isLt
    have hi1 : (i 1).val < 1 := (i 1).isLt
    have hi2 : (i 2).val < 1 := (i 2).isLt
    have hN : cfg0.N = 36 := N_0
    let t : Fin cfg0.N := ⟨9 * (i 0).val + 8, by rw [hN]; omega⟩
    obtain ⟨e0, e1, e2⟩ := idx_out t
    have tv : t.val = 9 * (i 0).val + 8 := rfl
    refine ⟨t, (flush0_2 t).mpr (by rw [tv]; omega), ?_⟩
    show i ∈ ((View.whole main_v0).slice (win0_2.rect t)).set
    rw [View.set_slice_whole, Rect.mem_set_unit]
    intro a
    match a with
    | ⟨0, _⟩ =>
      show win0_2.index t (0 : Fin 3) * 1 ≤ (i 0).val ∧ (i 0).val < win0_2.index t (0 : Fin 3) * 1 + 1
      rw [e0, tv]; omega
    | ⟨1, _⟩ =>
      show win0_2.index t (1 : Fin 3) * 1 ≤ (i 1).val ∧ (i 1).val < win0_2.index t (1 : Fin 3) * 1 + 1
      rw [e1]; omega
    | ⟨2, _⟩ =>
      show win0_2.index t (2 : Fin 3) * 1 ≤ (i 2).val ∧ (i 2).val < win0_2.index t (2 : Fin 3) * 1 + 1
      rw [e2]; omega

/-- The host operations after the region: the four totals summed from the zero word, divided by the word 589824. -/
theorem tail_eq (c : Dev nD) :
    Pipeline.afterTail₀ cfgs (dats m) 0 (V0 m) [hostOps1] c main_v2
      = fun _ => Cert.CE.meanK (logitsOf m c) (labelsOf m c) := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.tc.devRef main_v0)
      = totals m c from (Pipeline.withArrays_arr spec0 launch0.win.arr_inj c _ _ 2).trans (final_out m c)]
  funext i
  show Ideal.div (Host.reduceAdd (F := Ideal) (totals m c) (constant S_ .f32 0x00000000#32) reducesTo_S4x1x1_S_d0_1_2 h_S_ i)
      (Ideal.ofBits .f32 0x49100000#32) = _
  simp only [Host.reduceAdd, Ideal.hostReduceAdd_def]
  rw [Ideal.hostReduceAdd_total reducesTo_S4x1x1_S_d0_1_2 (fun b => b.elim0)]
  unfold Cert.CE.meanK
  refine congrArg (fun s => Ideal.div s Cert.CE.count) ?_
  refine congrArg (Cert.CE.zero + ·) ?_
  rw [Cert.CE.sum_idx3 (totals m c)]
  refine Finset.sum_congr rfl fun b _ => ?_
  rw [Fin.sum_univ_one, Fin.sum_univ_one]
  rfl

/-- THE KERNEL'S RUN, READ: every weakly fair execution ends with the result at the mean loss (summed in the
    kernel's order) of the two argument arrays, and the arguments unchanged. -/
theorem run : θ_run defs (onTc (τ := τ) (main (F := Ideal))) ⟨m, fun _ => 0, ρ⟩ fun r => ∀ c : Dev nD,
      r.2.mem ((c.tc : Thread nD τ).loc main_v2) = (fun _ => Cert.CE.meanK (logitsOf m c) (labelsOf m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v2 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KV

end
-- ==== Proof.RefRun.lean ====
/-
  The reference program's run: every weakly fair execution ends with its result at the last stage of its operations,
  read as a function of the two arguments, and the arguments unchanged.

  The program is a straight line of 45 tensor operations. It is read in three consecutive stretches: the transpose
  and the log-softmax (the value main_v1), the index clamp and the gather along the last axis with its mask
  (main_v3), and the negated mean (main_v7). What a stretch leaves in its result buffer is a function of what the
  buffers it reads held before it, whatever the other buffers held; the three functions composed are the last stage.
-/
import proofs.«425143_j35064113005059_2_alg».proof.Proof.RefRead
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The program as a list of operations

Two of the program's lines are calls of functions (the log-softmax and the gather along an axis); the called functions'
operations stand in the calls' places, each reading and writing buffers through references that carry the type of the
value held. Those types are the buffers' own, so each such operation is the plain operation over its buffers; the lists
below are the program's operations in that plain form, and `main_eq` is that the program runs them in order. -/

/-- Operations 1 to 16: the transpose of the first argument and the log-softmax along the last axis. -/
abbrev ops1 : List (HloOp τ sig (Elt F)) :=
  [ unary main_arg0 main_v0 ((transpose S4x288x512x256 [0, 2, 3, 1] · transposes_S4x256x288x512_S4x288x512x256_0_2_3_1) : (⟨S4x256x288x512, .f32⟩ : BufTy).Contents (Elt F) → (⟨S4x288x512x256, .f32⟩ : BufTy).Contents (Elt F)),
    nullary main_call0_cst (constant S_ .f32 0xFF800000#32 : (⟨S_, .f32⟩ : BufTy).Contents (Elt F)),
    binary main_v0 main_call0_cst main_call0_v0 ((fun x v => Host.reduce FloatOps.maximumf x v reducesTo_S4x288x512x256_S4x288x512_d3 h_S_) : (⟨S4x288x512x256, .f32⟩ : BufTy).Contents (Elt F) → (⟨S_, .f32⟩ : BufTy).Contents (Elt F) → (⟨S4x288x512, .f32⟩ : BufTy).Contents (Elt F)),
    nullary main_call0_cst_0 (constant S_ .f32 0xFF800000#32 : (⟨S_, .f32⟩ : BufTy).Contents (Elt F)),
    unary main_call0_cst_0 main_call0_v1 (broadcastInDim S4x288x512 ![] bcast_S_S4x288x512 : (⟨S_, .f32⟩ : BufTy).Contents (Elt F) → (⟨S4x288x512, .f32⟩ : BufTy).Contents (Elt F)),
    binary main_call0_v1 main_call0_v0 main_call0_v2 (maximumf : (⟨S4x288x512, .f32⟩ : BufTy).Contents (Elt F) → (⟨S4x288x512, .f32⟩ : BufTy).Contents (Elt F) → (⟨S4x288x512, .f32⟩ : BufTy).Contents (Elt F)),
    unary main_call0_v2 main_call0_v3 (broadcastInDim S4x288x512x1 ![0, 1, 2] bcast_S4x288x512_S4x288x512x1_0_1_2 : (⟨S4x288x512, .f32⟩ : BufTy).Contents (Elt F) → (⟨S4x288x512x1, .f32⟩ : BufTy).Contents (Elt F)),
    unary main_call0_v3 main_call0_v4 (broadcastInDim S4x288x512x256 ![0, 1, 2, 3] bcast_S4x288x512x1_S4x288x512x256_0_1_2_3 : (⟨S4x288x512x1, .f32⟩ : BufTy).Contents (Elt F) → (⟨S4x288x512x256, .f32⟩ : BufTy).Contents (Elt F)),
    binary main_v0 main_call0_v4 main_call0_v5 (subf : (⟨S4x288x512x256, .f32⟩ : BufTy).Contents (Elt F) → (⟨S4x288x512x256, .f32⟩ : BufTy).Contents (Elt F) → (⟨S4x288x512x256, .f32⟩ : BufTy).Contents (Elt F)),
    unary main_call0_v5 main_call0_v6 (Host.exp : (⟨S4x288x512x256, .f32⟩ : BufTy).Contents (Elt F) → (⟨S4x288x512x256, .f32⟩ : BufTy).Contents (Elt F)),
    nullary main_call0_cst_1 (constant S_ .f32 0x00000000#32 : (⟨S_, .f32⟩ : BufTy).Contents (Elt F)),
    binary main_call0_v6 main_call0_cst_1 main_call0_v7 ((fun x v => Host.reduceAdd x v reducesTo_S4x288x512x256_S4x288x512_d3 h_S_) : (⟨S4x288x512x256, .f32⟩ : BufTy).Contents (Elt F) → (⟨S_, .f32⟩ : BufTy).Contents (Elt F) → (⟨S4x288x512, .f32⟩ : BufTy).Contents (Elt F)),
    unary main_call0_v7 main_call0_v8 (broadcastInDim S4x288x512x1 ![0, 1, 2] bcast_S4x288x512_S4x288x512x1_0_1_2 : (⟨S4x288x512, .f32⟩ : BufTy).Contents (Elt F) → (⟨S4x288x512x1, .f32⟩ : BufTy).Contents (Elt F)),
    unary main_call0_v8 main_call0_v9 (Host.log : (⟨S4x288x512x1, .f32⟩ : BufTy).Contents (Elt F) → (⟨S4x288x512x1, .f32⟩ : BufTy).Contents (Elt F)),
    unary main_call0_v9 main_call0_v10 (broadcastInDim S4x288x512x256 ![0, 1, 2, 3] bcast_S4x288x512x1_S4x288x512x256_0_1_2_3 : (⟨S4x288x512x1, .f32⟩ : BufTy).Contents (Elt F) → (⟨S4x288x512x256, .f32⟩ : BufTy).Contents (Elt F)),
    binary main_call0_v5 main_call0_v10 main_v1 (subf : (⟨S4x288x512x256, .f32⟩ : BufTy).Contents (Elt F) → (⟨S4x288x512x256, .f32⟩ : BufTy).Contents (Elt F) → (⟨S4x288x512x256, .f32⟩ : BufTy).Contents (Elt F)) ]

/-- Operations 17 to 39: the second argument as a column of indices, negative indices wrapped, the gather along the last
    axis, and the mask of the indices in range. -/
abbrev ops2 : List (HloOp τ sig (Elt F)) :=
  [ unary main_arg1 main_v2 (broadcastInDim S4x288x512x1 ![0, 1, 2] bcast_S4x288x512_S4x288x512x1_0_1_2 : (⟨S4x288x512, .i32⟩ : BufTy).Contents (Elt F) → (⟨S4x288x512x1, .i32⟩ : BufTy).Contents (Elt F)),
    nullary main_call1_c (constantI S_ 32 0#32 : (⟨S_, .i32⟩ : BufTy).Contents (Elt F)),
    unary main_call1_c main_call1_v0 (broadcastInDim S4x288x512x1 ![] bcast_S_S4x288x512x1 : (⟨S_, .i32⟩ : BufTy).Contents (Elt F) → (⟨S4x288x512x1, .i32⟩ : BufTy).Contents (Elt F)),
    binary main_v2 main_call1_v0 main_call1_v1 (cmpi .slt : (⟨S4x288x512x1, .i32⟩ : BufTy).Contents (Elt F) → (⟨S4x288x512x1, .i32⟩ : BufTy).Contents (Elt F) → (⟨S4x288x512x1, .i1⟩ : BufTy).Contents (Elt F)),
    nullary main_call1_c_0 (constantI S_ 32 256#32 : (⟨S_, .i32⟩ : BufTy).Contents (Elt F)),
    unary main_call1_c_0 main_call1_v2 (broadcastInDim S4x288x512x1 ![] bcast_S_S4x288x512x1 : (⟨S_, .i32⟩ : BufTy).Contents (Elt F) → (⟨S4x288x512x1, .i32⟩ : BufTy).Contents (Elt F)),
    binary main_v2 main_call1_v2 main_call1_v3 (addi : (⟨S4x288x512x1, .i32⟩ : BufTy).Contents (Elt F) → (⟨S4x288x512x1, .i32⟩ : BufTy).Contents (Elt F) → (⟨S4x288x512x1, .i32⟩ : BufTy).Contents (Elt F)),
    ternary main_call1_v1 main_call1_v3 main_v2 main_call1_v4 (select : (⟨S4x288x512x1, .i1⟩ : BufTy).Contents (Elt F) → (⟨S4x288x512x1, .i32⟩ : BufTy).Contents (Elt F) → (⟨S4x288x512x1, .i32⟩ : BufTy).Contents (Elt F) → (⟨S4x288x512x1, .i32⟩ : BufTy).Contents (Elt F)),
    reshape main_call1_v4 main_call1_v5 rfl shapeCasts_S4x288x512x1_S4x288x512x1x1,
    nullary main_call1_c_1 (constantI S1 32 255#32 : (⟨S1, .i32⟩ : BufTy).Contents (Elt F)),
    nullary main_call1_c_2 (constantI S_ 32 0#32 : (⟨S_, .i32⟩ : BufTy).Contents (Elt F)),
    unary main_call1_c_2 main_call1_v6 (broadcastInDim S4x288x512x1x1 ![] bcast_S_S4x288x512x1x1 : (⟨S_, .i32⟩ : BufTy).Contents (Elt F) → (⟨S4x288x512x1x1, .i32⟩ : BufTy).Contents (Elt F)),
    binary main_call1_v5 main_call1_v6 main_call1_v7 (cmpi .sge : (⟨S4x288x512x1x1, .i32⟩ : BufTy).Contents (Elt F) → (⟨S4x288x512x1x1, .i32⟩ : BufTy).Contents (Elt F) → (⟨S4x288x512x1x1, .i1⟩ : BufTy).Contents (Elt F)),
    unary main_call1_c_1 main_call1_v8 (broadcastInDim S1x1x1x1x1 ![4] bcast_S1_S1x1x1x1x1_4 : (⟨S1, .i32⟩ : BufTy).Contents (Elt F) → (⟨S1x1x1x1x1, .i32⟩ : BufTy).Contents (Elt F)),
    unary main_call1_v8 main_call1_v9 (broadcastInDim S4x288x512x1x1 ![0, 1, 2, 3, 4] bcast_S1x1x1x1x1_S4x288x512x1x1_0_1_2_3_4 : (⟨S1x1x1x1x1, .i32⟩ : BufTy).Contents (Elt F) → (⟨S4x288x512x1x1, .i32⟩ : BufTy).Contents (Elt F)),
    binary main_call1_v5 main_call1_v9 main_call1_v10 (cmpi .sle : (⟨S4x288x512x1x1, .i32⟩ : BufTy).Contents (Elt F) → (⟨S4x288x512x1x1, .i32⟩ : BufTy).Contents (Elt F) → (⟨S4x288x512x1x1, .i1⟩ : BufTy).Contents (Elt F)),
    binary main_call1_v7 main_call1_v10 main_call1_v11 (andi : (⟨S4x288x512x1x1, .i1⟩ : BufTy).Contents (Elt F) → (⟨S4x288x512x1x1, .i1⟩ : BufTy).Contents (Elt F) → (⟨S4x288x512x1x1, .i1⟩ : BufTy).Contents (Elt F)),
    nullary main_call1_c_3 (constantI S_ 1 1#1 : (⟨S_, .i1⟩ : BufTy).Contents (Elt F)),
    binary main_call1_v11 main_call1_c_3 main_call1_v12 ((fun x v => Host.reduce IntOp.andi x v reducesTo_S4x288x512x1x1_S4x288x512x1_d4 h_S_) : (⟨S4x288x512x1x1, .i1⟩ : BufTy).Contents (Elt F) → (⟨S_, .i1⟩ : BufTy).Contents (Elt F) → (⟨S4x288x512x1, .i1⟩ : BufTy).Contents (Elt F)),
    binary main_v1 main_call1_v5 main_call1_v13 ((fun x i => Host.gather gather_S4x288x512x256_S4x288x512x1x1_S4x288x512x1_n_3_012_012_3_4_1111 x i) : (⟨S4x288x512x256, .f32⟩ : BufTy).Contents (Elt F) → (⟨S4x288x512x1x1, .i32⟩ : BufTy).Contents (Elt F) → (⟨S4x288x512x1, .f32⟩ : BufTy).Contents (Elt F)),
    nullary main_call1_cst (constant S_ .f32 0x7FC00000#32 : (⟨S_, .f32⟩ : BufTy).Contents (Elt F)),
    unary main_call1_cst main_call1_v14 (broadcastInDim S4x288x512x1 ![] bcast_S_S4x288x512x1 : (⟨S_, .f32⟩ : BufTy).Contents (Elt F) → (⟨S4x288x512x1, .f32⟩ : BufTy).Contents (Elt F)),
    ternary main_call1_v12 main_call1_v13 main_call1_v14 main_v3 (select : (⟨S4x288x512x1, .i1⟩ : BufTy).Contents (Elt F) → (⟨S4x288x512x1, .f32⟩ : BufTy).Contents (Elt F) → (⟨S4x288x512x1, .f32⟩ : BufTy).Contents (Elt F) → (⟨S4x288x512x1, .f32⟩ : BufTy).Contents (Elt F)) ]

/-- Operations 40 to 45: the column flattened, negated, summed and divided by the number of positions. -/
abbrev ops3 : List (HloOp τ sig (Elt F)) :=
  [ reshape main_v3 main_v4 rfl shapeCasts_S4x288x512x1_S4x288x512,
    unary main_v4 main_v5 (Host.negf : (⟨S4x288x512, .f32⟩ : BufTy).Contents (Elt F) → (⟨S4x288x512, .f32⟩ : BufTy).Contents (Elt F)),
    nullary main_cst (constant S_ .f32 0x00000000#32),
    binary main_v5 main_cst main_v6 ((fun x v => Host.reduceAdd x v reducesTo_S4x288x512_S_d0_1_2 h_S_) : (⟨S4x288x512, .f32⟩ : BufTy).Contents (Elt F) → (⟨S_, .f32⟩ : BufTy).Contents (Elt F) → (⟨S_, .f32⟩ : BufTy).Contents (Elt F)),
    nullary main_cst_0 (constant S_ .f32 0x49100000#32),
    binary main_v6 main_cst_0 main_v7 (Host.divf : (⟨S_, .f32⟩ : BufTy).Contents (Elt F) → (⟨S_, .f32⟩ : BufTy).Contents (Elt F) → (⟨S_, .f32⟩ : BufTy).Contents (Elt F)) ]

/-- The whole line. -/
abbrev ops : List (HloOp τ sig (Elt F)) := ops1 ++ ops2 ++ ops3

/-- Operations 1 to 16 as the program spells them: the log-softmax's over typed references. -/
abbrev callOps1 : List (HloOp τ sig (Elt F)) :=
  [ unary main_arg0 main_v0 ((transpose S4x288x512x256 [0, 2, 3, 1] · transposes_S4x256x288x512_S4x288x512x256_0_2_3_1) : (⟨S4x256x288x512, .f32⟩ : BufTy).Contents (Elt F) → (⟨S4x288x512x256, .f32⟩ : BufTy).Contents (Elt F)),
    TRef.nullary (TRef.of (T := ⟨S_, .f32⟩) main_call0_cst) (constant S_ .f32 0xFF800000#32),
    TRef.binary (TRef.of (T := ⟨S4x288x512x256, .f32⟩) main_v0) (TRef.of (T := ⟨S_, .f32⟩) main_call0_cst) (TRef.of (T := ⟨S4x288x512, .f32⟩) main_call0_v0) (fun x v => Host.reduce FloatOps.maximumf x v reducesTo_S4x288x512x256_S4x288x512_d3 h_S_),
    TRef.nullary (TRef.of (T := ⟨S_, .f32⟩) main_call0_cst_0) (constant S_ .f32 0xFF800000#32),
    TRef.unary (TRef.of (T := ⟨S_, .f32⟩) main_call0_cst_0) (TRef.of (T := ⟨S4x288x512, .f32⟩) main_call0_v1) (broadcastInDim S4x288x512 ![] bcast_S_S4x288x512),
    TRef.binary (TRef.of (T := ⟨S4x288x512, .f32⟩) main_call0_v1) (TRef.of (T := ⟨S4x288x512, .f32⟩) main_call0_v0) (TRef.of (T := ⟨S4x288x512, .f32⟩) main_call0_v2) maximumf,
    TRef.unary (TRef.of (T := ⟨S4x288x512, .f32⟩) main_call0_v2) (TRef.of (T := ⟨S4x288x512x1, .f32⟩) main_call0_v3) (broadcastInDim S4x288x512x1 ![0, 1, 2] bcast_S4x288x512_S4x288x512x1_0_1_2),
    TRef.unary (TRef.of (T := ⟨S4x288x512x1, .f32⟩) main_call0_v3) (TRef.of (T := ⟨S4x288x512x256, .f32⟩) main_call0_v4) (broadcastInDim S4x288x512x256 ![0, 1, 2, 3] bcast_S4x288x512x1_S4x288x512x256_0_1_2_3),
    TRef.binary (TRef.of (T := ⟨S4x288x512x256, .f32⟩) main_v0) (TRef.of (T := ⟨S4x288x512x256, .f32⟩) main_call0_v4) (TRef.of (T := ⟨S4x288x512x256, .f32⟩) main_call0_v5) subf,
    TRef.unary (TRef.of (T := ⟨S4x288x512x256, .f32⟩) main_call0_v5) (TRef.of (T := ⟨S4x288x512x256, .f32⟩) main_call0_v6) Host.exp,
    TRef.nullary (TRef.of (T := ⟨S_, .f32⟩) main_call0_cst_1) (constant S_ .f32 0x00000000#32),
    TRef.binary (TRef.of (T := ⟨S4x288x512x256, .f32⟩) main_call0_v6) (TRef.of (T := ⟨S_, .f32⟩) main_call0_cst_1) (TRef.of (T := ⟨S4x288x512, .f32⟩) main_call0_v7) (fun x v => Host.reduceAdd x v reducesTo_S4x288x512x256_S4x288x512_d3 h_S_),
    TRef.unary (TRef.of (T := ⟨S4x288x512, .f32⟩) main_call0_v7) (TRef.of (T := ⟨S4x288x512x1, .f32⟩) main_call0_v8) (broadcastInDim S4x288x512x1 ![0, 1, 2] bcast_S4x288x512_S4x288x512x1_0_1_2),
    TRef.unary (TRef.of (T := ⟨S4x288x512x1, .f32⟩) main_call0_v8) (TRef.of (T := ⟨S4x288x512x1, .f32⟩) main_call0_v9) Host.log,
    TRef.unary (TRef.of (T := ⟨S4x288x512x1, .f32⟩) main_call0_v9) (TRef.of (T := ⟨S4x288x512x256, .f32⟩) main_call0_v10) (broadcastInDim S4x288x512x256 ![0, 1, 2, 3] bcast_S4x288x512x1_S4x288x512x256_0_1_2_3),
    TRef.binary (TRef.of (T := ⟨S4x288x512x256, .f32⟩) main_call0_v5) (TRef.of (T := ⟨S4x288x512x256, .f32⟩) main_call0_v10) (TRef.of (T := ⟨S4x288x512x256, .f32⟩) main_v1) subf ]

/-- Operations 17 to 39 as the program spells them: the gather's over typed references. -/
abbrev callOps2 : List (HloOp τ sig (Elt F)) :=
  [ unary main_arg1 main_v2 (broadcastInDim S4x288x512x1 ![0, 1, 2] bcast_S4x288x512_S4x288x512x1_0_1_2 : (⟨S4x288x512, .i32⟩ : BufTy).Contents (Elt F) → (⟨S4x288x512x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S4x288x512x1, .i32⟩) main_call1_v0) (broadcastInDim S4x288x512x1 ![] bcast_S_S4x288x512x1),
    TRef.binary (TRef.of (T := ⟨S4x288x512x1, .i32⟩) main_v2) (TRef.of (T := ⟨S4x288x512x1, .i32⟩) main_call1_v0) (TRef.of (T := ⟨S4x288x512x1, .i1⟩) main_call1_v1) (cmpi .slt),
    TRef.nullary (TRef.of (T := ⟨S_, .i32⟩) main_call1_c_0) (constantI S_ 32 256#32),
    TRef.unary (TRef.of (T := ⟨S_, .i32⟩) main_call1_c_0) (TRef.of (T := ⟨S4x288x512x1, .i32⟩) main_call1_v2) (broadcastInDim S4x288x512x1 ![] bcast_S_S4x288x512x1),
    TRef.binary (TRef.of (T := ⟨S4x288x512x1, .i32⟩) main_v2) (TRef.of (T := ⟨S4x288x512x1, .i32⟩) main_call1_v2) (TRef.of (T := ⟨S4x288x512x1, .i32⟩) main_call1_v3) addi,
    TRef.ternary (TRef.of (T := ⟨S4x288x512x1, .i1⟩) main_call1_v1) (TRef.of (T := ⟨S4x288x512x1, .i32⟩) main_call1_v3) (TRef.of (T := ⟨S4x288x512x1, .i32⟩) main_v2) (TRef.of (T := ⟨S4x288x512x1, .i32⟩) main_call1_v4) select,
    TRef.reshape (TRef.of (T := ⟨S4x288x512x1, .i32⟩) main_call1_v4) (TRef.of (T := ⟨S4x288x512x1x1, .i32⟩) main_call1_v5) rfl shapeCasts_S4x288x512x1_S4x288x512x1x1,
    TRef.nullary (TRef.of (T := ⟨S1, .i32⟩) main_call1_c_1) (constantI S1 32 255#32),
    TRef.nullary (TRef.of (T := ⟨S_, .i32⟩) main_call1_c_2) (constantI S_ 32 0#32),
    TRef.unary (TRef.of (T := ⟨S_, .i32⟩) main_call1_c_2) (TRef.of (T := ⟨S4x288x512x1x1, .i32⟩) main_call1_v6) (broadcastInDim S4x288x512x1x1 ![] bcast_S_S4x288x512x1x1),
    TRef.binary (TRef.of (T := ⟨S4x288x512x1x1, .i32⟩) main_call1_v5) (TRef.of (T := ⟨S4x288x512x1x1, .i32⟩) main_call1_v6) (TRef.of (T := ⟨S4x288x512x1x1, .i1⟩) main_call1_v7) (cmpi .sge),
    TRef.unary (TRef.of (T := ⟨S1, .i32⟩) main_call1_c_1) (TRef.of (T := ⟨S1x1x1x1x1, .i32⟩) main_call1_v8) (broadcastInDim S1x1x1x1x1 ![4] bcast_S1_S1x1x1x1x1_4),
    TRef.unary (TRef.of (T := ⟨S1x1x1x1x1, .i32⟩) main_call1_v8) (TRef.of (T := ⟨S4x288x512x1x1, .i32⟩) main_call1_v9) (broadcastInDim S4x288x512x1x1 ![0, 1, 2, 3, 4] bcast_S1x1x1x1x1_S4x288x512x1x1_0_1_2_3_4),
    TRef.binary (TRef.of (T := ⟨S4x288x512x1x1, .i32⟩) main_call1_v5) (TRef.of (T := ⟨S4x288x512x1x1, .i32⟩) main_call1_v9) (TRef.of (T := ⟨S4x288x512x1x1, .i1⟩) main_call1_v10) (cmpi .sle),
    TRef.binary (TRef.of (T := ⟨S4x288x512x1x1, .i1⟩) main_call1_v7) (TRef.of (T := ⟨S4x288x512x1x1, .i1⟩) main_call1_v10) (TRef.of (T := ⟨S4x288x512x1x1, .i1⟩) main_call1_v11) andi,
    TRef.nullary (TRef.of (T := ⟨S_, .i1⟩) main_call1_c_3) (constantI S_ 1 1#1),
    TRef.binary (TRef.of (T := ⟨S4x288x512x1x1, .i1⟩) main_call1_v11) (TRef.of (T := ⟨S_, .i1⟩) main_call1_c_3) (TRef.of (T := ⟨S4x288x512x1, .i1⟩) main_call1_v12) (fun x v => Host.reduce IntOp.andi x v reducesTo_S4x288x512x1x1_S4x288x512x1_d4 h_S_),
    TRef.binary (TRef.of (T := ⟨S4x288x512x256, .f32⟩) main_v1) (TRef.of (T := ⟨S4x288x512x1x1, .i32⟩) main_call1_v5) (TRef.of (T := ⟨S4x288x512x1, .f32⟩) main_call1_v13) (fun x i => Host.gather gather_S4x288x512x256_S4x288x512x1x1_S4x288x512x1_n_3_012_012_3_4_1111 x i),
    TRef.nullary (TRef.of (T := ⟨S_, .f32⟩) main_call1_cst) (constant S_ .f32 0x7FC00000#32),
    TRef.unary (TRef.of (T := ⟨S_, .f32⟩) main_call1_cst) (TRef.of (T := ⟨S4x288x512x1, .f32⟩) main_call1_v14) (broadcastInDim S4x288x512x1 ![] bcast_S_S4x288x512x1),
    TRef.ternary (TRef.of (T := ⟨S4x288x512x1, .i1⟩) main_call1_v12) (TRef.of (T := ⟨S4x288x512x1, .f32⟩) main_call1_v13) (TRef.of (T := ⟨S4x288x512x1, .f32⟩) main_call1_v14) (TRef.of (T := ⟨S4x288x512x1, .f32⟩) main_v3) select ]

theorem cons_congr {α : Type _} {a b : α} {l m : List α} (h : a = b) (h' : l = m) : a :: l = b :: m := h ▸ h' ▸ rfl

/-- A two-operand operation over typed references whose carried types are the buffers' own is the operation over the
    buffers: the transports along the type equations are identities, whatever the function. -/
theorem binary_plain (a b y : Ref sig .tc) (da : a.space ≠ .host) (db : b.space ≠ .host) (dy : y.space ≠ .host)
    (ua : a.isScoped = false) (ub : b.isScoped = false) (uy : y.isScoped = false)
    (f : a.ty.Contents (Elt F) → b.ty.Contents (Elt F) → y.ty.Contents (Elt F))
    (ha : a.space ≠ .host ∧ (Proc.devRef (τ := τ) .tc a).isScoped = false)
    (hb : b.space ≠ .host ∧ (Proc.devRef (τ := τ) .tc b).isScoped = false)
    (hy : y.space ≠ .host ∧ (Proc.devRef (τ := τ) .tc y).isScoped = false) :
    (TRef.binary (Ta := a.ty) (Tb := b.ty) (Ty := y.ty) ⟨a, rfl, da, ua⟩ ⟨b, rfl, db, ub⟩ ⟨y, rfl, dy, uy⟩ f : HloOp τ sig (Elt F))
      = binary a b y f ha hb hy := rfl

theorem callOps1_eq : (callOps1 : List (HloOp τ sig (Elt F))) = ops1 :=
  cons_congr rfl <|
    cons_congr rfl <|
    cons_congr (binary_plain main_v0 main_call0_cst main_call0_v0 _ _ _ _ _ _ _ _ _ _) <|
    cons_congr rfl <|
    cons_congr rfl <|
    cons_congr (binary_plain main_call0_v1 main_call0_v0 main_call0_v2 _ _ _ _ _ _ _ _ _ _) <|
    cons_congr rfl <|
    cons_congr rfl <|
    cons_congr (binary_plain main_v0 main_call0_v4 main_call0_v5 _ _ _ _ _ _ _ _ _ _) <|
    cons_congr rfl <|
    cons_congr rfl <|
    cons_congr (binary_plain main_call0_v6 main_call0_cst_1 main_call0_v7 _ _ _ _ _ _ _ _ _ _) <|
    cons_congr rfl <|
    cons_congr rfl <|
    cons_congr rfl <|
    cons_congr (binary_plain main_call0_v5 main_call0_v10 main_v1 _ _ _ _ _ _ _ _ _ _) <| rfl

theorem callOps2_eq : (callOps2 : List (HloOp τ sig (Elt F))) = ops2 :=
  cons_congr rfl <|
    cons_congr rfl <|
    cons_congr rfl <|
    cons_congr (binary_plain main_v2 main_call1_v0 main_call1_v1 _ _ _ _ _ _ _ _ _ _) <|
    cons_congr rfl <|
    cons_congr rfl <|
    cons_congr (binary_plain main_v2 main_call1_v2 main_call1_v3 _ _ _ _ _ _ _ _ _ _) <|
    cons_congr rfl <|
    cons_congr rfl <|
    cons_congr rfl <|
    cons_congr rfl <|
    cons_congr rfl <|
    cons_congr (binary_plain main_call1_v5 main_call1_v6 main_call1_v7 _ _ _ _ _ _ _ _ _ _) <|
    cons_congr rfl <|
    cons_congr rfl <|
    cons_congr (binary_plain main_call1_v5 main_call1_v9 main_call1_v10 _ _ _ _ _ _ _ _ _ _) <|
    cons_congr (binary_plain main_call1_v7 main_call1_v10 main_call1_v11 _ _ _ _ _ _ _ _ _ _) <|
    cons_congr rfl <|
    cons_congr (binary_plain main_call1_v11 main_call1_c_3 main_call1_v12 _ _ _ _ _ _ _ _ _ _) <|
    cons_congr (binary_plain main_v1 main_call1_v5 main_call1_v13 _ _ _ _ _ _ _ _ _ _) <|
    cons_congr rfl <|
    cons_congr rfl <|
    cons_congr rfl <| rfl

set_option maxRecDepth 8192 in
theorem main_eq_call (c : Dev nD) : main (F := F) c = seq (callOps1 ++ callOps2 ++ ops3) := rfl

theorem main_eq (c : Dev nD) : main (F := F) c = seq ops := by
  rw [main_eq_call, callOps1_eq, callOps2_eq]

theorem scopedRefs_eq : (Finset.univ.filter fun b : Ref sig .tc => b.isScoped) = ∅ := by decide
theorem scopedSems_eq : (Finset.univ.filter fun sm : SemLoc sig => sm.isScoped .tc) = ∅ := by decide

theorem ops1_sub : (ops1 : List (HloOp τ sig (Elt F))).Forall fun op => op.bufs ⊆ tcRefs τ sig :=
  ⟨unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem ops2_sub : (ops2 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
theorem ops3_sub : (ops3 : List (HloOp τ sig (Elt F))).Forall fun op => op.bufs ⊆ tcRefs τ sig :=
  ⟨reshape_bufs_sub .., unary_bufs_sub .., nullary_bufs_sub .., binary_bufs_sub .., nullary_bufs_sub .., binary_bufs_sub ..⟩
theorem ops_sub : (ops : List (HloOp τ sig (Elt F))).Forall fun op => op.bufs ⊆ tcRefs τ sig :=
  List.forall_append.mpr ⟨List.forall_append.mpr ⟨ops1_sub, ops2_sub⟩, ops3_sub⟩

/-! ## The three stretches as functions -/
/-- What the second stretch leaves in main_v3, as a function of what main_v1 and the second argument held before it. -/
def stage2 (y1 : (⟨S4x288x512x256, .f32⟩ : BufTy).Contents (Elt F)) (x1 : (⟨S4x288x512, .i32⟩ : BufTy).Contents (Elt F)) :
    (⟨S4x288x512x1, .f32⟩ : BufTy).Contents (Elt F) :=
  select (ReadP.val_main_call1_v12 (F := F) x1)
    (Host.gather gather_S4x288x512x256_S4x288x512x1x1_S4x288x512x1_n_3_012_012_3_4_1111 y1 (ReadP.val_main_call1_v5 (F := F) x1))
    (ReadP.val_main_call1_v14 (F := F))

/-- What the third stretch leaves in main_v7, as a function of what main_v3 held before it. -/
def stage3 (y3 : (⟨S4x288x512x1, .f32⟩ : BufTy).Contents (Elt F)) : (⟨S_, .f32⟩ : BufTy).Contents (Elt F) :=
  Host.divf (Host.reduceAdd (Host.negf (shapeCast _ y3 shapeCasts_S4x288x512x1_S4x288x512)) (ReadP.val_main_cst (F := F))
    reducesTo_S4x288x512_S_d0_1_2 h_S_) (ReadP.val_main_cst_0 (F := F))

/-- The last stage is the three stretches' functions composed. -/
theorem stages_eq (x0 : (⟨S4x256x288x512, .f32⟩ : BufTy).Contents (Elt F)) (x1 : (⟨S4x288x512, .i32⟩ : BufTy).Contents (Elt F)) :
    stage3 (stage2 (ReadP.val_main_v1 (F := F) x0) x1) = ReadP.val_main_v7 (F := F) x0 x1 := rfl

/-! ## Each stretch from any contents `W` of the buffers

Stated for every `W`, so that a later stretch is read without opening the earlier ones. -/

set_option maxRecDepth 8192 in
theorem after1_v1 (W : Valuation τ sig (Elt F)) :
    after ops1 W (Proc.devRef (τ := τ) .tc main_v1) = ReadP.val_main_v1 (F := F) (W (Proc.devRef (τ := τ) .tc main_arg0)) := by
  after_results_simp <;> rfl
theorem after1_arg0 (W : Valuation τ sig (Elt F)) :
    after ops1 W (Proc.devRef (τ := τ) .tc main_arg0) = W (Proc.devRef (τ := τ) .tc main_arg0) := by
  after_results_simp <;> rfl
theorem after1_arg1 (W : Valuation τ sig (Elt F)) :
    after ops1 W (Proc.devRef (τ := τ) .tc main_arg1) = W (Proc.devRef (τ := τ) .tc main_arg1) := by
  after_results_simp <;> rfl

set_option maxRecDepth 8192 in
theorem after2_v3 (W : Valuation τ sig (Elt F)) :
    after ops2 W (Proc.devRef (τ := τ) .tc main_v3)
      = stage2 (F := F) (W (Proc.devRef (τ := τ) .tc main_v1)) (W (Proc.devRef (τ := τ) .tc main_arg1)) := by
  after_results_simp <;> rfl
theorem after2_arg0 (W : Valuation τ sig (Elt F)) :
    after ops2 W (Proc.devRef (τ := τ) .tc main_arg0) = W (Proc.devRef (τ := τ) .tc main_arg0) := by
  after_results_simp <;> rfl
theorem after2_arg1 (W : Valuation τ sig (Elt F)) :
    after ops2 W (Proc.devRef (τ := τ) .tc main_arg1) = W (Proc.devRef (τ := τ) .tc main_arg1) := by
  after_results_simp <;> rfl

theorem after3_v7 (W : Valuation τ sig (Elt F)) :
    after ops3 W (Proc.devRef (τ := τ) .tc main_v7) = stage3 (F := F) (W (Proc.devRef (τ := τ) .tc main_v3)) := by
  after_results_simp <;> rfl
theorem after3_arg0 (W : Valuation τ sig (Elt F)) :
    after ops3 W (Proc.devRef (τ := τ) .tc main_arg0) = W (Proc.devRef (τ := τ) .tc main_arg0) := by
  after_results_simp <;> rfl
theorem after3_arg1 (W : Valuation τ sig (Elt F)) :
    after ops3 W (Proc.devRef (τ := τ) .tc main_arg1) = W (Proc.devRef (τ := τ) .tc main_arg1) := by
  after_results_simp <;> rfl

/-- Two lines run one after the other: the second from what the first leaves. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-! ## The whole line -/

theorem after_v7 (V : Valuation τ sig (Elt F)) :
    after ops V (Proc.devRef (τ := τ) .tc main_v7)
      = ReadP.val_main_v7 (F := F) (V (Proc.devRef (τ := τ) .tc main_arg0)) (V (Proc.devRef (τ := τ) .tc main_arg1)) := by
  rw [after_app, after_app, after3_v7, after2_v3, after1_v1, after1_arg1]
  exact stages_eq _ _
theorem after_arg0 (V : Valuation τ sig (Elt F)) :
    after ops V (Proc.devRef (τ := τ) .tc main_arg0) = V (Proc.devRef (τ := τ) .tc main_arg0) := by
  rw [after_app, after_app, after3_arg0, after2_arg0, after1_arg0]
theorem after_arg1 (V : Valuation τ sig (Elt F)) :
    after ops V (Proc.devRef (τ := τ) .tc main_arg1) = V (Proc.devRef (τ := τ) .tc main_arg1) := by
  rw [after_app, after_app, after3_arg1, after2_arg1, after1_arg1]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7)
          = ReadP.val_main_v7 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v7).trans (after_v7 _), (h c main_arg0).trans (after_arg0 _),
      (h c main_arg1).trans (after_arg1 _)⟩)
    (run_seq scopedRefs_eq scopedSems_eq defs main (fun _ => ops) main_eq (fun _ => ops_sub) m ρ)

end Cert.ReferenceIdeal.RefRun

end
-- ==== Proof.RefValue.lean ====
/-
  The reference's result, read index by index: minus the log-softmax at the labelled class, summed over the pixels and
  divided by their number.
-/
import proofs.«425143_j35064113005059_2_alg».proof.Proof.RefRead
import proofs.«425143_j35064113005059_2_alg».proof.Proof.Spec
import Idealize.ShloMosaic.PureOps.Reduce
import Idealize.ShloMosaic.Lib.StableHlo.Predicate

noncomputable section

namespace Cert.ReferenceIdeal.RefValue

open Cert.ReferenceIdeal Cert.ReferenceIdeal.Gen Cert.ReferenceIdeal.ReadP Idealize.ShloMosaic Idealize.ShloMosaic.ValueIdx

/-! ## Words: a label below 256 is kept by the normalising select and passes the range test -/

/-- A label word below 256 is not negative: the select on "label < 0" keeps it. -/
theorem norm_label (t : BitVec 32) (ht : t.toNat < 256) :
    Scalar.select (IntOp.cmpi .slt t 0#32) (IntOp.addi t 256#32) t = t := by
  have h0 : IntOp.cmpi .slt t 0#32 = 0#1 := eq_zero_of_ne_one fun h => by
    have := (StableHlo.Predicate.slt_iff_toNat (a := t) (b := 0#32) (by omega) (by decide)).1 h
    simp at this
  rw [h0, select_zero]

/-- A label word below 256 lies in [0, 255]: both signed compares hold. -/
theorem inrange_label (t : BitVec 32) (ht : t.toNat < 256) :
    IntOp.andi (IntOp.cmpi .sge t 0#32) (IntOp.cmpi .sle t 255#32) = 1#1 := by
  have h1 : IntOp.cmpi .sge t 0#32 = 1#1 :=
    (StableHlo.Predicate.sge_iff_toNat (a := t) (b := 0#32) (by omega) (by decide)).2 (by simp)
  have h2 : IntOp.cmpi .sle t 255#32 = 1#1 :=
    (StableHlo.Predicate.sle_iff_toNat (a := t) (b := 255#32) (by omega) (by decide)).2 (by
      show t.toNat ≤ 255; omega)
  rw [h1, h2]; rfl

/-- Read signed and clamped into [0, 255], a label word below 256 is its value. -/
theorem clamp_label (t : BitVec 32) (ht : t.toNat < 256) : min t.toInt.toNat 255 = t.toNat := by
  rw [StableHlo.Predicate.toInt_eq_toNat_of_lt (a := t) (by omega)]
  simp only [Int.toNat_natCast]; omega

/-! ## Indices: the composed index maps are the coordinate constructors -/

/-- The reshape [4,288,512] → [4,288,512,1] reads pixel (b, y, w) at (b, y, w, 0). -/
theorem idx_v4_eq (j : S4x288x512.Idx) : idx_main_v4 j = ix4 (j 0) (j 1) (j 2) (0 : Fin 1) := by
  funext a; apply Fin.ext
  have h0 : (j 0).val < 4 := (j 0).isLt
  have h1 : (j 1).val < 288 := (j 1).isLt
  have h2 : (j 2).val < 512 := (j 2).isLt
  match a with
  | ⟨0, _⟩ => show (((j 0).val * 288 + (j 1).val) * 512 + (j 2).val) / 147456 = (j 0).val; omega
  | ⟨1, _⟩ => show (((j 0).val * 288 + (j 1).val) * 512 + (j 2).val) / 512 % 288 = (j 1).val; omega
  | ⟨2, _⟩ => show (((j 0).val * 288 + (j 1).val) * 512 + (j 2).val) / 1 % 512 = (j 2).val; omega
  | ⟨3, _⟩ => rfl

/-- The label read at (b, y, w, 0, 0) of the reshaped, normalised labels is the label of pixel (b, y, w). -/
theorem idx_label_eq (b : Fin 4) (y : Fin 288) (w : Fin 512) :
    idx_main_v2 (idx_main_call1_v5 (ix5 b y w (0 : Fin 1) (0 : Fin 1))) = ix3 b y w := by
  funext a; apply Fin.ext
  have h0 := b.isLt; have h1 := y.isLt; have h2 := w.isLt
  match a with
  | ⟨0, _⟩ => show ((((b.val * 288 + y.val) * 512 + w.val) * 1 + 0) * 1 + 0) / 147456 = b.val; omega
  | ⟨1, _⟩ => show ((((b.val * 288 + y.val) * 512 + w.val) * 1 + 0) * 1 + 0) / 512 % 288 = y.val; omega
  | ⟨2, _⟩ => show ((((b.val * 288 + y.val) * 512 + w.val) * 1 + 0) * 1 + 0) / 1 % 512 = w.val; omega

/-! ## The gather: the operand at (b, y, w, clamped label) -/

/-- The take's dimension numbers: batching axes 0, 1, 2 on both sides, the class axis collapsed and start-indexed. -/
abbrev gd : GatherDims S4x288x512x256 S4x288x512x1x1 S4x288x512x1 :=
  gather_S4x288x512x256_S4x288x512x1x1_S4x288x512x1_n_3_012_012_3_4_1111

/-- On a batching axis of the operand the index the take reads is the result's own coordinate there. -/
theorem gather_batch_coord (idx : IVec S4x288x512x1x1 32) (p : S4x288x512x1.Idx) (a : Fin 4)
    (hm : a ∈ gd.operandBatchingDims) :
    gd.start p idx a + gd.batchCoord p a + gd.offCoord p a = gd.batchCoord p a := by
  rw [gd.start_batching p idx a hm, gd.offCoord_eq_zero p a (fun h => ((gd.mem_sKept a).1 h).2 hm), Nat.zero_add,
    Nat.add_zero]

/-- The take along the class axis, read at (b, y, w, 0): the operand at (b, y, w, k), k the start index at
    (b, y, w, 0, 0) read signed and clamped into [0, 255]. -/
theorem gather_read {α : Type} (x : S4x288x512x256.Idx → α) (idx : IVec S4x288x512x1x1 32) (b : Fin 4) (y : Fin 288) (w : Fin 512) :
    Host.gather gd x idx (ix4 b y w (0 : Fin 1))
      = x (ix4 b y w (⟨min (idx (ix5 b y w (0 : Fin 1) (0 : Fin 1))).toInt.toNat 255, by omega⟩ : Fin 256)) := by
  unfold Host.gather
  congr 1
  funext a
  apply Fin.ext
  match a with
  | ⟨0, _⟩ =>
    show gd.start _ idx (0 : Fin 4) + gd.batchCoord _ (0 : Fin 4) + gd.offCoord _ (0 : Fin 4) = b.val
    have hm : (0 : Fin 4) ∈ gd.operandBatchingDims := by decide
    rw [gather_batch_coord idx _ _ hm]
    unfold GatherDims.batchCoord
    rw [dif_pos hm]
    rfl
  | ⟨1, _⟩ =>
    show gd.start _ idx (1 : Fin 4) + gd.batchCoord _ (1 : Fin 4) + gd.offCoord _ (1 : Fin 4) = y.val
    have hm : (1 : Fin 4) ∈ gd.operandBatchingDims := by decide
    rw [gather_batch_coord idx _ _ hm]
    unfold GatherDims.batchCoord
    rw [dif_pos hm]
    rfl
  | ⟨2, _⟩ =>
    show gd.start _ idx (2 : Fin 4) + gd.batchCoord _ (2 : Fin 4) + gd.offCoord _ (2 : Fin 4) = w.val
    have hm : (2 : Fin 4) ∈ gd.operandBatchingDims := by decide
    rw [gather_batch_coord idx _ _ hm]
    unfold GatherDims.batchCoord
    rw [dif_pos hm]
    rfl
  | ⟨3, _⟩ =>
    show gd.start _ idx (3 : Fin 4) + gd.batchCoord _ (3 : Fin 4) + gd.offCoord _ (3 : Fin 4)
      = min (idx (ix5 b y w (0 : Fin 1) (0 : Fin 1))).toInt.toNat 255
    have hnb : (3 : Fin 4) ∉ gd.operandBatchingDims := by decide
    have hc : (3 : Fin 4) ∈ gd.collapsedSliceDims := by decide
    have hm : (3 : Fin 4) ∈ gd.startIndexMap := by decide
    rw [gd.batchCoord_eq_zero _ _ hnb, gd.offCoord_eq_zero _ _ (fun h => ((gd.mem_sKept _).1 h).1 hc), Nat.add_zero]
    unfold GatherDims.start
    rw [dif_pos hm]
    have hsi : gd.siIdx (ix4 b y w (0 : Fin 1)) ⟨List.idxOf (3 : Fin 4) gd.startIndexMap, List.idxOf_lt_length_iff.2 hm⟩
        = ix5 b y w (0 : Fin 1) (0 : Fin 1) := by
      funext c; refine Fin.ext ?_
      match c with
      | ⟨0, _⟩ => rfl
      | ⟨1, _⟩ => rfl
      | ⟨2, _⟩ => rfl
      | ⟨3, _⟩ => rfl
      | ⟨4, _⟩ => rfl
    rw [hsi]
    rfl

/-! ## The two reductions: the maximum over the classes, and the "and" of the range test -/

/-- The largest logit of a pixel: the maximum over the class axis of the transposed logits, from the word -∞. -/
theorem max_read (X : (⟨S4x256x288x512, .f32⟩ : BufTy).Contents (Elt Ideal)) (j : S4x288x512.Idx) :
    val_main_call0_v0 (F := Ideal) X j = Cert.CE.top (Cert.CE.pix X (j 0) (j 1) (j 2)) := by
  unfold val_main_call0_v0
  rw [Host.reduce_eq_fold_single FloatOps.maximumf _ _ reducesTo_S4x288x512x256_S4x288x512_d3 (by decide) h_S_ j]
  unfold Cert.CE.top
  refine Finset.fold_congr fun k _ => ?_
  show val_main_v0 (F := Ideal) X _ = _
  rw [val_main_v0_apply]
  unfold Cert.CE.pix
  exact congrArg X (funext fun a => Fin.ext (by
    match a with
    | ⟨0, _⟩ => rfl
    | ⟨1, _⟩ => rfl
    | ⟨2, _⟩ => rfl
    | ⟨3, _⟩ => rfl))

/-- A fold of the one-bit "and" from 1 over bits that are all 1 is 1. -/
theorem fold_andi_one {ι : Type} (s : Finset ι) (f : ι → BitVec 1) (hf : ∀ k ∈ s, f k = 1#1) :
    s.fold IntOp.andi 1#1 f = 1#1 := by
  classical
  induction s using Finset.induction_on with
  | empty => rfl
  | insert a s ha ih =>
    rw [Finset.fold_insert ha, hf a (Finset.mem_insert_self a s), ih fun k hk => hf k (Finset.mem_insert_of_mem hk)]
    rfl

variable (T : (⟨S4x288x512, .i32⟩ : BufTy).Contents (Elt Ideal)) (hT : ∀ j, (T j).toNat < 256)

include hT in
/-- The normalised, reshaped label is the label itself (it is not negative). -/
theorem label_read (q : S4x288x512x1x1.Idx) :
    val_main_call1_v5 (F := Ideal) T q = T (idx_main_v2 (idx_main_call1_v5 q)) := by
  rw [val_main_call1_v5_apply, val_main_call1_v4_apply, val_main_call1_v1_apply, val_main_call1_v3_apply,
    val_main_v2_apply, val_main_call1_v0_apply, val_main_call1_c_apply, val_main_call1_v2_apply,
    val_main_call1_c_0_apply]
  exact norm_label _ (hT _)

include hT in
/-- The in-range test holds at every index. -/
theorem inrange_read (q : S4x288x512x1x1.Idx) : val_main_call1_v11 (F := Ideal) T q = 1#1 := by
  rw [val_main_call1_v11_apply, val_main_call1_v7_apply, val_main_call1_v10_apply, label_read T hT,
    val_main_call1_v6_apply, val_main_call1_c_2_apply, val_main_call1_v9_apply, val_main_call1_v8_apply,
    val_main_call1_c_1_apply]
  exact inrange_label _ (hT _)

include hT in
/-- So does its "and" over the last axis (of extent one). -/
theorem and_read (p : S4x288x512x1.Idx) : val_main_call1_v12 (F := Ideal) T p = 1#1 := by
  unfold val_main_call1_v12
  rw [Host.reduce_eq_fold_single IntOp.andi _ _ reducesTo_S4x288x512x1x1_S4x288x512x1_d4 (by decide) h_S_ p]
  exact fold_andi_one _ _ fun k _ => inrange_read T hT _

/-! ## The float side: the shifted logits and the log-softmax -/

/-- The shifted logit at (b, y, w, c): the logit minus the larger of -∞ and the pixel's largest logit. -/
theorem shifted_read (X : (⟨S4x256x288x512, .f32⟩ : BufTy).Contents (Elt Ideal)) (i : S4x288x512x256.Idx) :
    val_main_call0_v5 (F := Ideal) X i
      = X (ix4 (i 0) (i 3) (i 1) (i 2)) - max Cert.CE.ninf (Cert.CE.top (Cert.CE.pix X (i 0) (i 1) (i 2))) := by
  rw [val_main_call0_v5_apply, val_main_v0_apply, val_main_call0_v4_apply, val_main_call0_v3_apply,
    val_main_call0_v2_apply, val_main_call0_v1_apply, val_main_call0_cst_0_apply, max_read]
  simp only [Ideal.subf_def, Ideal.maximumf_def, Ideal.ofBits_def]
  congr 1
  exact congrArg X (funext fun a => Fin.ext (by
    match a with
    | ⟨0, _⟩ => rfl
    | ⟨1, _⟩ => rfl
    | ⟨2, _⟩ => rfl
    | ⟨3, _⟩ => rfl))

/-! ## The gathered value: the log-softmax at the label -/

include hT in
/-- Pixel (b, y, w) of the gathered, reshaped stage is the log-softmax at (b, y, w, label). -/
theorem picked_read (X : (⟨S4x256x288x512, .f32⟩ : BufTy).Contents (Elt Ideal)) (j : S4x288x512.Idx) :
    val_main_v4 (F := Ideal) X T j
      = val_main_v1 (F := Ideal) X (ix4 (j 0) (j 1) (j 2) (⟨(T j).toNat, hT j⟩ : Fin 256)) := by
  rw [val_main_v4_apply, val_main_v3_apply, and_read T hT, select_one, idx_v4_eq]
  unfold val_main_call1_v13
  refine (gather_read _ _ (j 0) (j 1) (j 2)).trans ?_
  have hq : val_main_call1_v5 (F := Ideal) T (ix5 (j 0) (j 1) (j 2) (0 : Fin 1) (0 : Fin 1)) = T j :=
    (label_read T hT _).trans (congrArg T ((idx_label_eq (j 0) (j 1) (j 2)).trans (eq_ix3 j).symm))
  have hk : min (val_main_call1_v5 (F := Ideal) T (ix5 (j 0) (j 1) (j 2) (0 : Fin 1) (0 : Fin 1))).toInt.toNat 255
      = (T j).toNat :=
    (congrArg (fun t : BitVec 32 => min t.toInt.toNat 255) hq).trans (clamp_label _ (hT j))
  exact congrArg (fun k : Fin 256 => val_main_v1 (F := Ideal) X (ix4 (j 0) (j 1) (j 2) k)) (Fin.ext hk)

/-- With every label a class (its word's value below 256), the reference's last stage is the mean over the pixels of
    the negated log-softmax at the label. -/
theorem ref_eq (X : (⟨S4x256x288x512, .f32⟩ : BufTy).Contents (Elt Ideal)) (T : (⟨S4x288x512, .i32⟩ : BufTy).Contents (Elt Ideal))
    (hT : ∀ j, (T j).toNat < 256) :
    val_main_v7 (F := Ideal) X T = fun _ => Cert.CE.meanR X (fun j => ⟨(T j).toNat, hT j⟩) := by
  funext i
  rw [val_main_v7_apply, val_main_v6_apply]
  unfold Cert.CE.meanR
  rw [val_main_cst_0_apply, val_main_cst_apply]
  simp only [Ideal.hostDivf_def, Ideal.ofBits_def]
  refine congrArg (fun s => Ideal.div (Cert.CE.zero + s) Cert.CE.count) (Finset.sum_congr rfl fun j _ => ?_)
  rw [val_main_v5_apply, picked_read T hT, val_main_v1_apply, shifted_read, val_main_call0_v10_apply,
    val_main_call0_v9_apply, val_main_call0_v8_apply, val_main_call0_v7_apply, val_main_call0_cst_1_apply]
  simp only [val_main_call0_v6_apply, shifted_read, Ideal.hostUnary_exp_def, Ideal.hostUnary_log_def, Ideal.subf_def,
    Ideal.ofBits_def]
  unfold Cert.CE.lossR Cert.CE.pix
  rfl

end Cert.ReferenceIdeal.RefValue

end
-- ==== Proof.PreFacts.lean ====
/-
  What the precondition says of the two inputs: every logit is a real number and every label is a class.
-/
import proofs.«425143_j35064113005059_2_alg».proof.Pre_finite_inputs
import proofs.«425143_j35064113005059_2_alg».proof.Proof.Gen.Pre_finite_inputs
import Idealize.ShloMosaic.PureOps.Ideal
import Idealize.ShloMosaic.Lib.ReduceAll
import Idealize.ShloMosaic.Lib.StableHlo.Predicate

noncomputable section

namespace Cert.PreFacts

open Idealize.ShloMosaic

/-- The rank-0 shape has exactly one index. -/
instance subsingleton_scalar_idx : Subsingleton Cert.Pre_finite_inputs.S_.Idx := ⟨fun _ _ => funext fun d => d.elim0⟩

/-- The f32 word 0x7F800000 denotes +∞. -/
theorem ofBits_pos_inf : Ideal.ofBits .f32 0x7F800000#32 = (⊤ : EReal) := by simp [Ideal.ofBits, Ideal.ieee]

/-- An extended real whose absolute value max x (-x) is below +∞ is neither +∞ nor -∞, hence a real. -/
theorem real_of_abs_lt_top (x : EReal) (hx : max x (-x) < ⊤) : ∃ r : ℝ, x = (r : EReal) := by
  obtain ⟨h1, h2⟩ := max_lt_iff.1 hx
  have hne_top : x ≠ ⊤ := ne_of_lt h1
  have hne_bot : x ≠ ⊥ := by
    intro hb
    rw [hb, EReal.neg_bot] at h2
    exact lt_irrefl _ h2
  exact ⟨x.toReal, (EReal.coe_toReal hne_top hne_bot).symm⟩

/-- A 32-bit word that is, read signed, at least 0 and below 256 has unsigned value below 256. -/
theorem toNat_lt_of_signed_range (t : BitVec 32) (h0 : (0#32 : BitVec 32).toInt ≤ t.toInt) (h1 : t.toInt < (256#32 : BitVec 32).toInt) :
    t.toNat < 256 := by
  have e0 : (0#32 : BitVec 32).toInt = 0 := by decide
  have e1 : (256#32 : BitVec 32).toInt = 256 := by decide
  rw [e0] at h0
  rw [e1] at h1
  rw [BitVec.toInt_eq_toNat_cond] at h0 h1
  have hlt := t.isLt
  split at h0 <;> omega

/-- The printed predicate is all ones exactly when every logit's absolute value is below +∞ and every label word,
    read signed, is at least 0 and below 256; so every logit is a real and every label's value is below 256. -/
theorem of_pre (X : FVec Ideal Cert.Pre_finite_inputs.S4x256x288x512 .f32) (T : IVec Cert.Pre_finite_inputs.S4x288x512 32)
    (h : Cert.Pre_finite_inputs.fn (F := Ideal) X T = fun _ => 1#1) :
    (∀ i, ∃ r : ℝ, X i = (r : EReal)) ∧ (∀ j, (T j).toNat < 256) := by
  have h0 := congrFun h (fun a => a.elim0)
  dsimp only [Cert.Pre_finite_inputs.fn] at h0
  -- the final word is the "and" of the two all-reductions
  obtain ⟨hA, hB⟩ := IntOp.andi_eq_one.1 h0
  constructor
  · intro i
    -- every element of the float comparison is 1
    have e := Host.reduce_andi_all _ _ _ _ _ hA i
    change Ideal.cmp .olt (max (X i) (-(X i))) (Ideal.ofBits .f32 0x7F800000#32) = 1#1 at e
    rw [ofBits_pos_inf] at e
    simp only [Ideal.cmp, StableHlo.Predicate.ofBool_eq_one_iff, decide_eq_true_eq] at e
    exact real_of_abs_lt_top (X i) e
  · intro j
    -- every element of the conjunction of the two signed comparisons is 1
    have e := Host.reduce_andi_all _ _ _ _ _ hB j
    change IntOp.andi (IntOp.cmpi .sge (T j) 0#32) (IntOp.cmpi .slt (T j) 256#32) = 1#1 at e
    obtain ⟨e0, e1⟩ := IntOp.andi_eq_one.1 e
    exact toNat_lt_of_signed_range (T j) (IntOp.cmpi_sge.1 e0) (IntOp.cmpi_slt.1 e1)

end Cert.PreFacts

end
-- ==== Proof.lean ====
/-
  The certificate of a pixelwise softmax cross-entropy kernel against its jnp reference.

  The kernel takes logits x : [4, 256, 288, 512] and labels t : [4, 288, 512] and returns the mean over the 4·288·512
  pixels of log ∑_c exp (x_c - max_c x_c) - (x_t - max_c x_c): a grid of 4 images × 9 row tiles accumulates the
  per-pixel losses position by position in a [32, 512] scratch, the last tile of an image writes the scratch's total
  to a [4, 1, 1] array, and the host sums that array and divides by 589824.  The reference transposes the logits,
  applies log_softmax over the classes, takes the entry at the label, negates, and takes the mean.

  The precondition says that every logit is finite and every label lies in 0 … 255.  Under it the two results are the
  same extended real: per pixel both are the loss of that pixel (`Cert.CE.lossK_eq_lossR`: the select-sum over the
  classes picks the labelled class, and L - a = -(a - L) for a finite a), and the two orders of summation agree because
  addition of extended reals is commutative and associative (`Cert.CE.sum_tiles`).

  The kernel's side: the frames are the generated ones; its value is read off the frame's run —
  Pieces (what a grid point leaves), Chain (the scratch from point to point), Payload (one update at a position),
  Tiles (the scratch in closed form), Output (the output array, the host tail, the run).  The reference's side: RefRun
  (its run, ending at the last stage of its operations), RefRead (the stages read at an index), RefValue (the last stage
  is the mean of the negated log-softmax at the label).  PreFacts decodes the precondition.
-/
import proofs.«425143_j35064113005059_2_alg».proof.Defs
import proofs.«425143_j35064113005059_2_alg».proof.Proof.Gen.Kernel
import proofs.«425143_j35064113005059_2_alg».proof.Proof.Gen.Kernel.Frame
import proofs.«425143_j35064113005059_2_alg».proof.Proof.Gen.KernelIdeal
import proofs.«425143_j35064113005059_2_alg».proof.Proof.Gen.KernelIdeal.Frame
import proofs.«425143_j35064113005059_2_alg».proof.Proof.Gen.ReferenceIdeal
import proofs.«425143_j35064113005059_2_alg».proof.Proof.Gen.Pre_finite_inputs
import proofs.«425143_j35064113005059_2_alg».proof.Proof.Output
import proofs.«425143_j35064113005059_2_alg».proof.Proof.RefRun
import proofs.«425143_j35064113005059_2_alg».proof.Proof.RefValue
import proofs.«425143_j35064113005059_2_alg».proof.Proof.PreFacts
import proofs.«425143_j35064113005059_2_alg».proof.Proof.SpecLaws
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote nothing. -/
theorem preserves : Cert.preserves_Kernel_KernelIdeal := trivial

/-- Both programs end at the mean loss of the argument arrays: the kernel's run gives it summed tile by tile, the
    reference's summed over the pixel indices, and under the precondition the two are equal. -/
theorem algebraic : Cert.algebraic_KernelIdeal_ReferenceIdeal := by
  intro m ρ m' ρ' hpre hagree
  refine ⟨fun c => fun _ => Cert.CE.meanK (Cert.KernelIdeal.KV.logitsOf m c) (Cert.KernelIdeal.KV.labelsOf m c),
    Cert.KernelIdeal.KV.run m ρ, ?_⟩
  refine (θ_run Cert.ReferenceIdeal.defs _ _).mono (fun _ h c => ⟨(h c).1.trans ?_, (h c).2⟩)
    (Cert.ReferenceIdeal.RefRun.run (F := Ideal) m' ρ')
  obtain ⟨hX, hT⟩ := Cert.PreFacts.of_pre _ _ (hpre c)
  rw [(hagree c).1, (hagree c).2, Cert.ReferenceIdeal.RefValue.ref_eq _ _ hT]
  exact funext fun _ => (Cert.CE.meanK_eq_meanR _ _ hX hT).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
